-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S20000x128 .f32) (main_arg1 : FVec F S20000x5000 .f32) (main_arg2 : FVec F S128x128 .f32) (main_arg3 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S20000x256 : Shape := ⟨2, ![20000, 256]⟩
abbrev S2000x128 : Shape := ⟨2, ![2000, 128]⟩
abbrev S2000x256 : Shape := ⟨2, ![2000, 256]⟩
abbrev S5000x128 : Shape := ⟨2, ![5000, 128]⟩
abbrev S400x5000 : Shape := ⟨2, ![400, 5000]⟩
abbrev S400x256 : Shape := ⟨2, ![400, 256]⟩
abbrev S5000x256 : Shape := ⟨2, ![5000, 256]⟩
abbrev S1x128 : Shape := ⟨2, ![1, 128]⟩
abbrev S400x128 : Shape := ⟨2, ![400, 128]⟩
abbrev S400 : Shape := ⟨1, ![400]⟩
abbrev S400x1 : Shape := ⟨2, ![400, 1]⟩

abbrev nBuf : Space → Nat
  | .hbm => 8
  | .vmem => 17
  | .smem => 0
  | _ => 0

abbrev bufTy : (tb : Table) → Fin (tcTables nBuf tb) → BufTy
  | .hbm, ⟨0, _⟩ => ⟨S20000x128, .f32⟩
  | .hbm, ⟨1, _⟩ => ⟨S20000x5000, .f32⟩
  | .hbm, ⟨2, _⟩ => ⟨S128x128, .f32⟩
  | .hbm, ⟨3, _⟩ => ⟨S128, .f32⟩
  | .hbm, ⟨4, _⟩ => ⟨S20000x256, .f32⟩
  | .hbm, ⟨5, _⟩ => ⟨S5000x128, .f32⟩
  | .hbm, ⟨6, _⟩ => ⟨S1x128, .f32⟩
  | .hbm, ⟨7, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x256, .f32⟩
  | .local _ .vmem, ⟨4, _⟩ => ⟨S2000x256, .f32⟩
  | .local _ .vmem, ⟨5, _⟩ => ⟨S400x5000, .f32⟩
  | .local _ .vmem, ⟨6, _⟩ => ⟨S400x5000, .f32⟩
  | .local _ .vmem, ⟨7, _⟩ => ⟨S400x256, .f32⟩
  | .local _ .vmem, ⟨8, _⟩ => ⟨S400x256, .f32⟩
  | .local _ .vmem, ⟨9, _⟩ => ⟨S5000x128, .f32⟩
  | .local _ .vmem, ⟨10, _⟩ => ⟨S5000x256, .f32⟩
  | .local _ .vmem, ⟨11, _⟩ => ⟨S400x5000, .f32⟩
  | .local _ .vmem, ⟨12, _⟩ => ⟨S400x5000, .f32⟩
  | .local _ .vmem, ⟨13, _⟩ => ⟨S5000x128, .f32⟩
  | .local _ .vmem, ⟨14, _⟩ => ⟨S1x128, .f32⟩
  | .local _ .vmem, ⟨15, _⟩ => ⟨S400x128, .f32⟩
  | .local _ .vmem, ⟨16, _⟩ => ⟨S400x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x5000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S400x5000_S400x5000_0_0 : ∀ a, (![0, 0] : Fin 2 → Nat) a + S400x5000.size a ≤ S400x5000.size a
  h_S400x5000 : 0 < S400x5000.numel
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S5000x256_S5000x128_0_0 : ∀ a, (![0, 0] : Fin 2 → Nat) a + S5000x128.size a ≤ S5000x256.size a
  h_S5000x128 : 0 < S5000x128.numel
  inb_S5000x256_S5000x128_0_128 : ∀ a, (![0, 128] : Fin 2 → Nat) a + S5000x128.size a ≤ S5000x256.size a
  inb_S5000x128_S5000x128_0_0 : ∀ a, (![0, 0] : Fin 2 → Nat) a + S5000x128.size a ≤ S5000x128.size a
  shapeCasts_S128_S1x128 : S128.ShapeCasts S1x128
  shapeCasts_S5000x128_S5000x128 : S5000x128.ShapeCasts S5000x128
  reduces_S400x5000_S400 : S400x5000.Reduces [1] S400
  shapeCasts_S400_S400x1 : S400.ShapeCasts S400x1
  broadcasts_S400x1_S400x128 : S400x1.Broadcasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S2000x128_S128x128_S2000x128_1_0_0_1_n_n_wf : DotDims.WF S2000x128 S128x128 S2000x128 [1] [0] [0] [1] [] []
  dot_S400x5000_S400x256_S5000x256_0_0_1_1_n_n_wf : DotDims.WF S400x5000 S400x256 S5000x256 [0] [0] [1] [1] [] []
  dot_S400x5000_S5000x128_S400x128_1_0_0_1_n_n_wf : DotDims.WF S400x5000 S5000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S20000x5000.size a
  hwx1_0 : ∀ i : grid1.Coords, EltTy.bits .f32 = 32 ∨ (Rect.block (s := S20000x5000) S400x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x256.size a ≤ S20000x256.size a
  hwx1_1 : ∀ i : grid1.Coords, EltTy.bits .f32 = 32 ∨ (Rect.block (s := S20000x256) S400x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S5000x128.size a
  hwx1_2 : ∀ i : grid1.Coords, EltTy.bits .f32 = 32 ∨ (Rect.block (s := S5000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x5000.size a ≤ S20000x5000.size a
  hwx2_0 : ∀ i : grid2.Coords, EltTy.bits .f32 = 32 ∨ (Rect.block (s := S20000x5000) S400x5000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S5000x128.size a
  hwx2_1 : ∀ i : grid2.Coords, EltTy.bits .f32 = 32 ∨ (Rect.block (s := S5000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S20000x128.size a
  hwx2_3 : ∀ i : grid2.Coords, EltTy.bits .f32 = 32 ∨ (Rect.block (s := S20000x128) S400x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x5000_S400x256_S5000x256_0_0_1_1_n_n : DotDims S400x5000 S400x256 S5000x256 where
  lhsContracting := [0]
  rhsContracting := [0]
  lhsNonContracting := [1]
  rhsNonContracting := [1]
  lhsBatch := []
  rhsBatch := []
  wf := dot_S400x5000_S400x256_S5000x256_0_0_1_1_n_n_wf
def dot_S400x5000_S5000x128_S400x128_1_0_0_1_n_n : DotDims S400x5000 S5000x128 S400x128 where
  lhsContracting := [1]
  rhsContracting := [0]
  lhsNonContracting := [0]
  rhsNonContracting := [1]
  lhsBatch := []
  rhsBatch := []
  wf := dot_S400x5000_S5000x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S400x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S_ : Shape := ⟨0, ![]⟩
abbrev S20000 : Shape := ⟨1, ![20000]⟩
abbrev S5000 : Shape := ⟨1, ![5000]⟩
abbrev S5000x20000 : Shape := ⟨2, ![5000, 20000]⟩
abbrev S5000x128 : Shape := ⟨2, ![5000, 128]⟩
abbrev S5000x1 : Shape := ⟨2, ![5000, 1]⟩
abbrev S20000x1 : Shape := ⟨2, ![20000, 1]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x5000, .f32⟩
  | .hbm, ⟨2, _⟩ => ⟨S128x128, .f32⟩
  | .hbm, ⟨3, _⟩ => ⟨S128, .f32⟩
  | .hbm, ⟨4, _⟩ => ⟨S20000x128, .f32⟩
  | .hbm, ⟨5, _⟩ => ⟨S_, .f32⟩
  | .hbm, ⟨6, _⟩ => ⟨S20000, .f32⟩
  | .hbm, ⟨7, _⟩ => ⟨S_, .f32⟩
  | .hbm, ⟨8, _⟩ => ⟨S20000, .f32⟩
  | .hbm, ⟨9, _⟩ => ⟨S20000, .f32⟩
  | .hbm, ⟨10, _⟩ => ⟨S_, .f32⟩
  | .hbm, ⟨11, _⟩ => ⟨S5000, .f32⟩
  | .hbm, ⟨12, _⟩ => ⟨S_, .f32⟩
  | .hbm, ⟨13, _⟩ => ⟨S5000, .f32⟩
  | .hbm, ⟨14, _⟩ => ⟨S5000, .f32⟩
  | .hbm, ⟨15, _⟩ => ⟨S5000x20000, .f32⟩
  | .hbm, ⟨16, _⟩ => ⟨S5000x128, .f32⟩
  | .hbm, ⟨17, _⟩ => ⟨S5000x1, .f32⟩
  | .hbm, ⟨18, _⟩ => ⟨S5000x128, .f32⟩
  | .hbm, ⟨19, _⟩ => ⟨S5000x128, .f32⟩
  | .hbm, ⟨20, _⟩ => ⟨S20000x128, .f32⟩
  | .hbm, ⟨21, _⟩ => ⟨S20000x1, .f32⟩
  | .hbm, ⟨22, _⟩ => ⟨S20000x128, .f32⟩
  | .hbm, ⟨23, _⟩ => ⟨S20000x128, .f32⟩
  | .hbm, ⟨24, _⟩ => ⟨S1x128, .f32⟩
  | .hbm, ⟨25, _⟩ => ⟨S20000x128, .f32⟩
  | .hbm, ⟨26, _⟩ => ⟨S20000x128, .f32⟩
  | .hbm, ⟨27, _⟩ => ⟨S_, .f32⟩
  | .hbm, ⟨28, _⟩ => ⟨S20000x128, .f32⟩
  | .hbm, ⟨29, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S20000x5000_S20000_d1 : S20000x5000.ReducesTo [1] S20000
  h_S_ : 0 < S_.numel
  bcast_S_S20000 : S_.BroadcastsInDim S20000 (![] : Fin 0 → Fin S20000.rank)
  reducesTo_S20000x5000_S5000_d0 : S20000x5000.ReducesTo [0] S5000
  bcast_S_S5000 : S_.BroadcastsInDim S5000 (![] : Fin 0 → Fin S5000.rank)
  transposes_S20000x5000_S5000x20000_1_0 : S20000x5000.Transposes [1, 0] S5000x20000
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  dot_S20000x128_S128x128_S20000x128_1_0_0_1_n_n_wf : DotDims.WF S20000x128 S128x128 S20000x128 [1] [0] [0] [1] [] []
  dot_S5000x20000_S20000x128_S5000x128_1_0_0_1_n_n_wf : DotDims.WF S5000x20000 S20000x128 S5000x128 [1] [0] [0] [1] [] []
  dot_S20000x5000_S5000x128_S20000x128_1_0_0_1_n_n_wf : DotDims.WF S20000x5000 S5000x128 S20000x128 [1] [0] [0] [1] [] []

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S5000x20000_S20000x128_S5000x128_1_0_0_1_n_n : DotDims S5000x20000 S20000x128 S5000x128 where
  lhsContracting := [1]
  rhsContracting := [0]
  lhsNonContracting := [0]
  rhsNonContracting := [1]
  lhsBatch := []
  rhsBatch := []
  wf := dot_S5000x20000_S20000x128_S5000x128_1_0_0_1_n_n_wf
def dot_S20000x5000_S5000x128_S20000x128_1_0_0_1_n_n : DotDims S20000x5000 S5000x128 S20000x128 where
  lhsContracting := [1]
  rhsContracting := [0]
  lhsNonContracting := [0]
  rhsNonContracting := [1]
  lhsBatch := []
  rhsBatch := []
  wf := dot_S20000x5000_S5000x128_S20000x128_1_0_0_1_n_n_wf

class Facts : Prop extends Facts₀ where

variable [Facts]
-- ==== Proof.KI.Reg0.lean ====
/-
  The first launch: X [20000,128] times W [128,128], ten row blocks of 2000.  Each grid point loads its
  2000-row block of X and the whole of W, and leaves in its 2000 x 256 output block the matrix product in
  columns 0..127 and the constant one in columns 128..255.  Stated at the contents `V` the launch finds in
  the buffers: the block read at a point, what the body leaves in the output block (its two stores as
  pieces, the later first), the body's triple, the pipeline's proof data and the body obligation.
-/
import proofs.«118258_j69604239999586_1_alg».proof.Proof.Gen.KernelIdeal.Launch
import proofs.«118258_j69604239999586_1_alg».proof.Proof.Gen.KernelIdeal.Skeleton
import proofs.«118258_j69604239999586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole of W, fetched at the first point only) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two rectangles of the output block the body stores into: columns 0..127 and columns 128..255. -/
abbrev r0_in0 : Rect S2000x128 := Rect.unit (s := S2000x128) ![0, 0] S2000x128.size inb_S2000x128_S2000x128_0_0
abbrev r0_in1 : Rect S128x128 := Rect.unit (s := S128x128) ![0, 0] S128x128.size inb_S128x128_S128x128_0_0
abbrev r0_lo : Rect S2000x256 := Rect.unit (s := S2000x256) ![0, 0] S2000x128.size inb_S2000x256_S2000x128_0_0
abbrev r0_hi : Rect S2000x256 := Rect.unit (s := S2000x256) ![0, 128] S2000x128.size inb_S2000x256_S2000x128_0_128

/-- What the body leaves in the output block, from the two input blocks: the product in the low half, ones in
    the high half (the later store first). -/
def out0_2 (x0 : Vec F S2000x128 .f32) (x1 : Vec F S128x128 .f32) : Vec F S2000x256 .f32 :=
  View.canon [⟨r0_hi, k0_pay2 (F := F)⟩, ⟨r0_lo, k0_pay1 (View.ld x0 r0_in0) (View.ld x1 r0_in1)⟩]

/-- The two halves tile the block. -/
theorem cover0_2 (p0 p1 : Vec F S2000x128 .f32) (y : S2000x256.Idx) :
    ∃ pc ∈ ([⟨r0_hi, p0⟩, ⟨r0_lo, p1⟩] : List (View.Piece (Elt F) S2000x256 .f32)), y ∈ pc.1.set :=
  View.cover_of_tiled [⟨r0_hi, p0⟩, ⟨r0_lo, p1⟩] S2000x128.size (by rfl) y

set_option maxHeartbeats 1000000 in
/-- The body on whole staging memrefs: inputs kept, the output block at `out0_2` of the inputs. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole)
    (arg3 : Memref sig .tc .vmem S2000x256 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-- The proof data of the first pipeline on core `c`: the arrays at `V`; after the body each input's buffer at
    its block, the output's at `out0_2` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Run.lean ====
/-
  The body of the second launch on whole staging memrefs, in its three control cases.  The body has two
  conditionals on the grid coordinate: the first (taken at the first point only) fills the accumulator with
  zeros; between them the body loads its two input blocks and the accumulator and stores the accumulator plus
  the transposed product of the blocks; the second (taken at the last point only) loads the accumulator's two
  column halves and stores the low half over the high half plus eps into the output block.  Each case's triple
  names what the accumulator (and, in the last case, the output block) holds afterwards through the payloads.
-/
import proofs.«118258_j69604239999586_1_alg».proof.Proof.Gen.KernelIdeal.Launch
import proofs.«118258_j69604239999586_1_alg».proof.Proof.Gen.KernelIdeal.Skeleton
import proofs.«118258_j69604239999586_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body loads and stores through: each buffer whole at zero offsets, and the two column
    halves of the accumulator. -/
abbrev q1_in0 : Rect S400x5000 := Rect.unit (s := S400x5000) ![0, 0] S400x5000.size inb_S400x5000_S400x5000_0_0
abbrev q1_in1 : Rect S400x256 := Rect.unit (s := S400x256) ![0, 0] S400x256.size inb_S400x256_S400x256_0_0
abbrev q1_sc : Rect S5000x256 := Rect.unit (s := S5000x256) ![0, 0] S5000x256.size inb_S5000x256_S5000x256_0_0
abbrev q1_lo : Rect S5000x256 := Rect.unit (s := S5000x256) ![0, 0] S5000x128.size inb_S5000x256_S5000x128_0_0
abbrev q1_hi : Rect S5000x256 := Rect.unit (s := S5000x256) ![0, 128] S5000x128.size inb_S5000x256_S5000x128_0_128
abbrev q1_out : Rect S5000x128 := Rect.unit (s := S5000x128) ![0, 0] S5000x128.size inb_S5000x128_S5000x128_0_0

/-- The condition of the body's first conditional, from the grid coordinate: it holds at the first point. -/
abbrev cond1_0 (i : grid1.Coords) : Prop := (Scalar.cmpi .ne (Scalar.extui (Scalar.cmpi .eq (BitVec.ofNat 32 (i 0).val) 0#32)) 0#32) = 1#1
/-- The condition of its second conditional: it holds at the last point. -/
abbrev cond1_1 (i : grid1.Coords) : Prop := k1_cond2 i = 1#1

/-- The zero offsets of a rank-two buffer, as the constant function. -/
theorem hzero1 : (![0, 0] : Fin 2 → Nat) = fun _ => 0 := funext fun a => by fin_cases a <;> rfl

/-- A store through the whole accumulator, last, covers it whatever came before; -/
theorem cover1_sc (p : Vec F S5000x256 .f32) (L : List (View.Piece (Elt F) S5000x256 .f32)) (y : S5000x256.Idx) :
    ∃ pc ∈ ((⟨q1_sc, p⟩ : View.Piece (Elt F) S5000x256 .f32) :: L), y ∈ pc.1.set :=
  ⟨_, List.mem_cons_self, View.mem_set_unit_zero hzero1 inb_S5000x256_S5000x256_0_0 y⟩
/-- and one through the whole output block covers that. -/
theorem cover1_out (p : Vec F S5000x128 .f32) (y : S5000x128.Idx) :
    ∃ pc ∈ ([(⟨q1_out, p⟩ : View.Piece (Elt F) S5000x128 .f32)]), y ∈ pc.1.set :=
  ⟨_, List.mem_singleton_self _, View.mem_set_unit_zero hzero1 inb_S5000x128_S5000x128_0_0 y⟩

set_option maxHeartbeats 1000000 in
/-- THE FIRST POINT (first conditional taken, second not): the accumulator, found at anything, is zeroed and then
    updated by the point's blocks; the inputs and the output block (idle here) are kept. -/
theorem kernel1_A (c : Dev nD) (E : Set ℕ) (i : grid1.Coords)
    (arg1 : Memref sig .tc .vmem S400x5000 .f32) (harg1 : arg1.IsWhole) (arg2 : Memref sig .tc .vmem S400x256 .f32) (harg2 : arg2.IsWhole)
    (arg3 : Memref sig .tc .vmem S5000x128 .f32) (harg3 : arg3.IsWhole) (arg4 : Memref sig .tc .vmem S5000x256 .f32) (harg4 : arg4.IsWhole)
    (hc0 : cond1_0 i) (hc1 : ¬cond1_1 i)
    (x0 : Vec F S400x5000 .f32) (x1 : Vec F S400x256 .f32) (xi : Vec F S5000x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 (View.ld x0 q1_in0) (View.ld x1 q1_in1) (k1_pay1 (F := F)))) -∗ K ⟨⟩))
      ⊢ wp frame (wpE (defs₀ (F := F)) Variants.none c none) E (cc1__h_t_xw_kernel i arg1 harg1 arg2 harg2 arg3 harg3 arg4 harg4) K := by
  simp only [cc1__h_t_xw_kernel_eq_skeleton]; unfold cc1__h_t_xw_kernel_skel
  unfold owns
  iintro ⟨⟨%f0, %hf0, H0⟩, ⟨%f1, %hf1, H1⟩, ⟨%f2, %hf2, H2⟩, ⟨%ds, %fs, -, HS⟩, Hk⟩
  subst hf0
  subst hf1
  subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  -- the later store covers: its payload, over the accumulator read back after the zero fill
  sl_unfold_words
  rw [View.read_writes_eq_canon _ _ _ (cover1_sc _ _), View.canon_cons_unit_zero hzero1, View.readCov_unit_zero _ hzero1]
  rfl

set_option maxHeartbeats 1000000 in
/-- A MIDDLE POINT (neither conditional taken): the accumulator, found at `xs`, is updated by the point's blocks;
    the inputs and the output block (idle here) are kept. -/
theorem kernel1_B (c : Dev nD) (E : Set ℕ) (i : grid1.Coords)
    (arg1 : Memref sig .tc .vmem S400x5000 .f32) (harg1 : arg1.IsWhole) (arg2 : Memref sig .tc .vmem S400x256 .f32) (harg2 : arg2.IsWhole)
    (arg3 : Memref sig .tc .vmem S5000x128 .f32) (harg3 : arg3.IsWhole) (arg4 : Memref sig .tc .vmem S5000x256 .f32) (harg4 : arg4.IsWhole)
    (hc0 : ¬cond1_0 i) (hc1 : ¬cond1_1 i)
    (x0 : Vec F S400x5000 .f32) (x1 : Vec F S400x256 .f32) (xi : Vec F S5000x128 .f32) (xs : Vec F S5000x256 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 (View.ld x0 q1_in0) (View.ld x1 q1_in1) (View.ld xs q1_sc))) -∗ K ⟨⟩))
      ⊢ wp frame (wpE (defs₀ (F := F)) Variants.none c none) E (cc1__h_t_xw_kernel i arg1 harg1 arg2 harg2 arg3 harg3 arg4 harg4) K := by
  simp only [cc1__h_t_xw_kernel_eq_skeleton]; unfold cc1__h_t_xw_kernel_skel
  unfold owns
  iintro ⟨⟨%f0, %hf0, H0⟩, ⟨%f1, %hf1, H1⟩, ⟨%f2, %hf2, H2⟩, ⟨%fs, %hfs, HS⟩, Hk⟩
  subst hf0
  subst hf1
  subst hf2
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover1_sc _ _), View.canon_unit_zero hzero1]
  rfl

set_option maxHeartbeats 1000000 in
/-- THE LAST POINT (second conditional taken, first not): the accumulator, found at `xs`, is updated by the point's
    blocks, and the output block, found at anything, receives the updated accumulator's low half over its high
    half plus eps; the inputs are kept. -/
theorem kernel1_C (c : Dev nD) (E : Set ℕ) (i : grid1.Coords)
    (arg1 : Memref sig .tc .vmem S400x5000 .f32) (harg1 : arg1.IsWhole) (arg2 : Memref sig .tc .vmem S400x256 .f32) (harg2 : arg2.IsWhole)
    (arg3 : Memref sig .tc .vmem S5000x128 .f32) (harg3 : arg3.IsWhole) (arg4 : Memref sig .tc .vmem S5000x256 .f32) (harg4 : arg4.IsWhole)
    (hc0 : ¬cond1_0 i) (hc1 : cond1_1 i)
    (x0 : Vec F S400x5000 .f32) (x1 : Vec F S400x256 .f32) (xs : Vec F S5000x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (View.ld (k1_pay2 (View.ld x0 q1_in0) (View.ld x1 q1_in1) (View.ld xs q1_sc)) q1_lo) (View.ld (k1_pay2 (View.ld x0 q1_in0) (View.ld x1 q1_in1) (View.ld xs q1_sc)) q1_hi))
            ∗ owns (c : Thread nD τ) arg4 fullShare (k1_pay2 (View.ld x0 q1_in0) (View.ld x1 q1_in1) (View.ld xs q1_sc))) -∗ K ⟨⟩))
      ⊢ wp frame (wpE (defs₀ (F := F)) Variants.none c none) E (cc1__h_t_xw_kernel i arg1 harg1 arg2 harg2 arg3 harg3 arg4 harg4) K := by
  simp only [cc1__h_t_xw_kernel_eq_skeleton]; unfold cc1__h_t_xw_kernel_skel
  unfold owns
  iintro ⟨⟨%f0, %hf0, H0⟩, ⟨%f1, %hf1, H1⟩, ⟨%d2, %f2, -, H2⟩, ⟨%fs, %hfs, HS⟩, Hk⟩
  subst hf0
  subst hf1
  subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    -- the one store covers the block; its payload reads the two halves of the accumulator just stored
    sl_unfold_words
    rw [View.read_writes_eq_canon _ _ _ (cover1_out _), View.canon_unit_zero hzero1,
      View.readCov_eq_canon_ld _ _ q1_lo (cover1_sc _ _), View.readCov_eq_canon_ld _ _ q1_hi (cover1_sc _ _),
      View.canon_unit_zero hzero1]
    rfl
  iexists _; isplitr
  swap; · iexact HS
  ipureintro
  sl_unfold_words
  rw [View.read_writes_eq_canon _ _ _ (cover1_sc _ _), View.canon_unit_zero hzero1]
  rfl

end Cert.KernelIdeal.Hand

end
-- ==== Proof.KI.Reg1.lean ====
/-
  The second launch: M = (H^T (X W)) / (colsum(H) + eps), accumulated over fifty row blocks of 400.  A scratch
  accumulator [5000,256] is zeroed at the first grid point; every point adds H_blk^T times its 400 x 256 block
  of the augmented product (its high half is all ones, so the high half of the accumulator is the column sum
  of H); the last point divides the low half by the high half plus eps and stores the 5000 x 128 result.
  Stated at the contents `V` the launch finds in the buffers: the accumulator after each point by recursion
  on the point (`acc1`), the output block at the last point (`mout1`), the invariant that carries the
  accumulator between points, the proof data and the body obligation.
-/
import proofs.«118258_j69604239999586_1_alg».proof.Proof.Gen.KernelIdeal.Launch
import proofs.«118258_j69604239999586_1_alg».proof.Proof.Gen.KernelIdeal.Skeleton
import proofs.«118258_j69604239999586_1_alg».proof.Proof.Gen.KernelIdeal.Points
import proofs.«118258_j69604239999586_1_alg».proof.Proof.KI.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S400x5000 := Rect.unit (s := S400x5000) ![0, 0] S400x5000.size inb_S400x5000_S400x5000_0_0
abbrev r1_in1 : Rect S400x256 := Rect.unit (s := S400x256) ![0, 0] S400x256.size inb_S400x256_S400x256_0_0
abbrev r1_sc : Rect S5000x256 := Rect.unit (s := S5000x256) ![0, 0] S5000x256.size inb_S5000x256_S5000x256_0_0
abbrev r1_lo : Rect S5000x256 := Rect.unit (s := S5000x256) ![0, 0] S5000x128.size inb_S5000x256_S5000x128_0_0
abbrev r1_hi : Rect S5000x256 := Rect.unit (s := S5000x256) ![0, 128] S5000x128.size inb_S5000x256_S5000x128_0_128
abbrev r1_out : Rect S5000x128 := Rect.unit (s := S5000x128) ![0, 0] S5000x128.size inb_S5000x128_S5000x128_0_0

/-- The scratch accumulator, a whole scoped buffer of the kernel's own. -/
abbrev scM1 : Memref sig .tc .vmem S5000x256 .f32 := Memref.whole cc1_scratch0

theorem h49 : 49 < cfg1.N := by decide

/-- THE ACCUMULATION: what the scratch holds after the body at point `n`: at the first point the update of the
    zero accumulator by the point's blocks, afterwards the update of what the point before left. -/
def acc1 (c : Dev nD) : (n : ℕ) → n < cfg1.N → Vec F S5000x256 .f32
  | 0, hn => k1_pay2 (View.ld (iblk1 V c 0 ⟨0, hn⟩) r1_in0) (View.ld (iblk1 V c 1 ⟨0, hn⟩) r1_in1) (k1_pay1 (F := F))
  | n + 1, hn => k1_pay2 (View.ld (iblk1 V c 0 ⟨n + 1, hn⟩) r1_in0) (View.ld (iblk1 V c 1 ⟨n + 1, hn⟩) r1_in1)
      (View.ld (acc1 c n (Nat.lt_of_succ_lt hn)) r1_sc)

/-- What the last point stores into the output block: the accumulator's low half over its high half plus eps. -/
def mout1 (c : Dev nD) : Vec F S5000x128 .f32 :=
  k1_pay3 (View.ld (acc1 V c 49 h49) r1_lo) (View.ld (acc1 V c 49 h49) r1_hi)

/-- The scoped buffers that are neither a staging buffer of this launch nor its scratch, each whole at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The region invariant before position `n`: before the first point the class's (every scoped buffer at anything);
    afterwards the scratch at what the point before left, the other scoped buffers at anything, the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ otherScoped1 (F := F) c ∗ (∃ r, prngReg c r))

/-- The proof data of the second pipeline on core `c`: the arrays at `V`; after the body each input's buffer at
    its block and the output's at `mout1` (consulted at the last point only: elsewhere the window is idle and not
    written back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => mout1 V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = mout1 V c := by dsimp only [dat1]

/-! ## The conditions in closed form, and where the windows are idle -/

/-- The first conditional is taken at the first point only; -/
theorem hcond1_0 : ∀ t : Fin cfg1.N, cond1_0 (grid1.coords t) ↔ t.val % 50 = 0 :=
  (by decide +kernel : ∀ t : Fin grid1.N, cond1_0 (grid1.coords t) ↔ t.val % 50 = 0)
/-- the second at the last point only. -/
theorem hcond1_1 : ∀ t : Fin cfg1.N, cond1_1 (grid1.coords t) ↔ t.val % 50 = 49 :=
  (by decide +kernel : ∀ t : Fin grid1.N, cond1_1 (grid1.coords t) ↔ t.val % 50 = 49)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last point the output window is idle (the body stores nothing into it) and not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- at the last point it is live. -/
theorem liveAt1_2 : ∀ t : Fin cfg1.N, cond1_1 (grid1.coords t) → cfg1.idle 2 (grid1.coords t) = false := by decide +kernel

/-! ## The inputs' staging buffers hold their blocks -/

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The invariant -/

/-- The class invariant hands out the scratch as a memref owned at some contents, beside the other scoped buffers
    and the generator register (the scoped rest's conjuncts reordered); -/
theorem PhiA1_split (c : Dev nD) :
    (Pipeline.ΦA spec1 c : sProp 𝕄)
      ⊢ iprop((∃ d, owns (c : Thread nD τ) scM1 fullShare d) ∗ otherScoped1 (F := F) c ∗ (∃ r, prngReg c r)) := by
  unfold Pipeline.ΦA otherScoped1; rw [scopedRest1_eq]; simp only [scM1, owns_whole]
  iintro ⟨⟨A0, A1, A2, A3, A4, S, B0, B1, B2, B3, B4, B5⟩, G⟩
  isplitl [S]; · iexact S
  isplitr [G]; swap; · iexact G
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  iexact B5

/-- and takes them back. -/
theorem PhiA1_join (c : Dev nD) :
    iprop((∃ d, owns (c : Thread nD τ) scM1 fullShare d) ∗ otherScoped1 (F := F) c ∗ (∃ r, prngReg c r))
      ⊢ (Pipeline.ΦA spec1 c : sProp 𝕄) := by
  unfold Pipeline.ΦA otherScoped1; rw [scopedRest1_eq]; simp only [scM1, owns_whole]
  iintro ⟨S, ⟨A0, A1, A2, A3, A4, B0, B1, B2, B3, B4, B5⟩, G⟩
  isplitr [G]; swap; · iexact G
  isplitl [A0]; · iexact A0
  isplitl [A1]; · iexact A1
  isplitl [A2]; · iexact A2
  isplitl [A3]; · iexact A3
  isplitl [A4]; · iexact A4
  isplitl [S]; · iexact S
  isplitl [B0]; · iexact B0
  isplitl [B1]; · iexact B1
  isplitl [B2]; · iexact B2
  isplitl [B3]; · iexact B3
  isplitl [B4]; · iexact B4
  iexact B5

/-- So the class invariant IS the scratch at some contents, the other scoped buffers and the generator register. -/
theorem PhiA1_eq (c : Dev nD) :
    (Pipeline.ΦA spec1 c : sProp 𝕄)
      = iprop((∃ d, owns (c : Thread nD τ) scM1 fullShare d) ∗ otherScoped1 (F := F) c ∗ (∃ r, prngReg c r)) :=
  BI.equiv_iff.mp ⟨PhiA1_split c, PhiA1_join c⟩

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(owns (c : Thread nD τ) scM1 fullShare (acc1 V c n hn) ∗ otherScoped1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ otherScoped1 (F := F) c ∗ (∃ r, prngReg c r)) := by
  cases n with
  | zero => exact absurd rfl hz
  | succ n => rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The accumulation's equations at a point -/

/-- At the first point: the zero accumulator updated by the point's blocks. -/
theorem acc1_first (c : Dev nD) (t : Fin cfg1.N) (h0 : t.val = 0) :
    acc1 V c t.val t.isLt = k1_pay2 (View.ld (iblk1 V c 0 t) r1_in0) (View.ld (iblk1 V c 1 t) r1_in1) (k1_pay1 (F := F)) := by
  obtain ⟨n, hn⟩ := t
  cases n with
  | zero => rfl
  | succ n => exact absurd h0 (Nat.succ_ne_zero n)

/-- At a later point: what the point before left, updated by the point's blocks. -/
theorem acc1_later (c : Dev nD) (t : Fin cfg1.N) (h0 : t.val ≠ 0) :
    acc1 V c t.val t.isLt = k1_pay2 (View.ld (iblk1 V c 0 t) r1_in0) (View.ld (iblk1 V c 1 t) r1_in1)
      (View.ld (acc1 V c (t.val - 1) (Nat.lt_of_le_of_lt (Nat.sub_le _ _) t.isLt)) r1_sc) := by
  obtain ⟨n, hn⟩ := t
  cases n with
  | zero => exact absurd rfl h0
  | succ n => rfl

/-- The accumulation depends on the point's position only. -/
theorem acc1_congr (c : Dev nD) (n n' : ℕ) (hn : n < cfg1.N) (hn' : n' < cfg1.N) (e : n = n') : acc1 V c n hn = acc1 V c n' hn' := by
  subst e; rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the scratch at what the point before left (at anything at the first point) and
    takes it back at this point's contents; the output block is handed back untouched off the last point and
    left at `mout1` there; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 50 := lt_of_lt_of_eq t.isLt (show cfg1.N = 50 from N_1)
  by_cases h1 : t.val % 50 = 49
  · -- the last point
    have h0 : ¬t.val % 50 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    unfold mout1
    rw [acc1_congr V c 49 t.val h49 t.isLt (by omega), acc1_later V c t hz]
    rw [PhiS1_castSucc V c t, PhiS1_pos V c _ _ hz]
    iintro ⟨⟨HS, Hr, Hg⟩, Ho, ⟨%d0, H0⟩, ⟨%d1, H1⟩, ⟨%d2, H2⟩⟩
    iapply (kernel1_C c Set.univ (grid1.coords t) _ _ _ _ _ _ _ _ (fun h => h0 ((hcond1_0 t).mp h)) ((hcond1_1 t).mpr h1)
      (iblk1 V c 0 t) (iblk1 V c 1 t) (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 50 = 0
    · -- the first point
      have hz : t.val = 0 := by omega
      rw [acc1_first V c t hz]
      rw [PhiS1_castSucc V c t, PhiS1_zero V c _ _ hz, PhiA1_eq]
      iintro ⟨⟨HS, Hr, Hg⟩, Ho, ⟨%d0, H0⟩, ⟨%d1, H1⟩, ⟨%d2, H2⟩⟩
      iapply (kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · -- a middle point
      have hz : t.val ≠ 0 := by omega
      rw [acc1_later V c t hz]
      rw [PhiS1_castSucc V c t, PhiS1_pos V c _ _ hz]
      iintro ⟨⟨HS, Hr, Hg⟩, Ho, ⟨%d0, H0⟩, ⟨%d1, H1⟩, ⟨%d2, H2⟩⟩
      iapply (kernel1_B c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨HS, Hr, Hg⟩
  isplitl [HS]; · iexists _; iexact HS
  isplitl [Hr]; · iexact Hr
  iexact Hg

end Cert.KernelIdeal.Hand

end
-- ==== Proof.KI.Reg2.lean ====
/-
  The third launch: out = relu((H M) / (rowsum(H) + eps) + bias), fifty row blocks of 400.  Each grid point
  loads its 400-row block of H, the whole of M [5000,128] and the bias row [1,128], and stores the 400 x 128
  result block whole.  Stated at the contents `V` the launch finds in the buffers: the block read at a point,
  what the body leaves in the output block, the body's triple, the proof data and the body obligation.
-/
import proofs.«118258_j69604239999586_1_alg».proof.Proof.Gen.KernelIdeal.Launch
import proofs.«118258_j69604239999586_1_alg».proof.Proof.Gen.KernelIdeal.Skeleton
import proofs.«118258_j69604239999586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_in0 : Rect S400x5000 := Rect.unit (s := S400x5000) ![0, 0] S400x5000.size inb_S400x5000_S400x5000_0_0
abbrev r2_in1 : Rect S5000x128 := Rect.unit (s := S5000x128) ![0, 0] S5000x128.size inb_S5000x128_S5000x128_0_0
abbrev r2_in2 : Rect S1x128 := Rect.unit (s := S1x128) ![0, 0] S1x128.size inb_S1x128_S1x128_0_0
abbrev r2_out : Rect S400x128 := Rect.unit (s := S400x128) ![0, 0] S400x128.size inb_S400x128_S400x128_0_0

/-- What the body leaves in the output block, from the three input blocks: its one store. -/
def out2_3 (x0 : Vec F S400x5000 .f32) (x1 : Vec F S5000x128 .f32) (x2 : Vec F S1x128 .f32) : Vec F S400x128 .f32 :=
  View.canon [⟨r2_out, k2_pay1 (View.ld x0 r2_in0) (View.ld x1 r2_in1) (View.ld x2 r2_in2)⟩]

/-- The one store covers the block. -/
theorem cover2_3 (p0 : Vec F S400x128 .f32) (y : S400x128.Idx) :
    ∃ pc ∈ ([⟨r2_out, p0⟩] : List (View.Piece (Elt F) S400x128 .f32)), y ∈ pc.1.set :=
  View.cover_of_tiled [⟨r2_out, p0⟩] S400x128.size (by rfl) y

set_option maxHeartbeats 1000000 in
/-- The body on whole staging memrefs: inputs kept, the output block at `out2_3` of the inputs. -/
theorem sound_kernel2 (c : Dev nD) (E : Set ℕ) (i : grid2.Coords) (arg1 : Memref sig .tc .vmem S400x5000 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S400x128 .f32) (harg4 : arg4.IsWhole)
    (x0 : Vec F S400x5000 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__h_m_kernel i arg1 harg1 arg2 harg2 arg3 harg3 arg4 harg4) K := by
  simp only [cc2__h_m_kernel_eq_skeleton]; unfold cc2__h_m_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays at `V`; after the body each input's buffer at
    its block, the output's at `out2_3` of the input blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`: the invariant, the core's debts, and each window's current staging
    buffer at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point `t`: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers hold their blocks, so the body's triple applies; the invariant
    and the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the program: three launches and one host reshape, in order.  The buffer contents at each
  boundary are a fold from the launch memory: a launch leaves its arrays at what its write-backs fold to and every
  other buffer as entered; the reshape writes the bias row.  Every pipeline's proof data is taken at its
  launch's entry contents; each launch is a segment entered from "every unscoped buffer at the boundary's
  contents, the generator register at some state, nothing owed"; the run ends with every unscoped buffer at the
  last boundary's contents, from which the result array and the four arguments are read.
-/
import proofs.«118258_j69604239999586_1_alg».proof.Proof.KI.Reg0
import proofs.«118258_j69604239999586_1_alg».proof.Proof.KI.Reg1
import proofs.«118258_j69604239999586_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references (what the first launch's proof data take). -/
abbrev VV0 : (c : Dev nD) → (b : Ref sig .tc) → Buf (Elt F) ((c : Thread nD τ).loc b) := fun c b => W0 m c b
/-- After the first launch: its arrays at what the pipeline leaves, every other buffer as entered. -/
def W1 (c : Dev nD) : Valuation τ sig (Elt F) :=
  Pipeline.withArrays spec0 c (W0 m c) fun w => (dat0 (VV0 m) c).arrAt w cfg0.N
abbrev VV1 : (c : Dev nD) → (b : Ref sig .tc) → Buf (Elt F) ((c : Thread nD τ).loc b) := fun c b => W1 m c b
/-- After the second launch. -/
def W2 (c : Dev nD) : Valuation τ sig (Elt F) :=
  Pipeline.withArrays spec1 c (W1 m c) fun w => (dat1 (VV1 m) c).arrAt w cfg1.N
abbrev VV2 : (c : Dev nD) → (b : Ref sig .tc) → Buf (Elt F) ((c : Thread nD τ).loc b) := fun c b => W2 m c b
/-- After the host reshape of the bias. -/
abbrev W3 : Dev nD → Valuation τ sig (Elt F) := fun c => StableHlo.after hostOps2 (W2 m c)
abbrev VV3 : (c : Dev nD) → (b : Ref sig .tc) → Buf (Elt F) ((c : Thread nD τ).loc b) := fun c b => W3 m c b
/-- After the third launch. -/
def W4 (c : Dev nD) : Valuation τ sig (Elt F) :=
  Pipeline.withArrays spec2 c (W3 m c) fun w => (dat2 (VV3 m) c).arrAt w cfg2.N

/-! ## The fold, read at one buffer

A launch's exit valuation read at one of its windows' arrays is what the write-backs fold to; read at any other buffer
it is the entry valuation.  The reshape writes the bias row's buffer and nothing else. -/

theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (VV1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W3_of_ne (c : Dev nD) (b : Ref sig .tc) (hb : b ≠ main_v2) :
    W3 m c (Proc.devRef .tc b) = W2 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem W4_arr (c : Dev nD) (w : Fin cfg2.W) :
    W4 m c (Proc.devRef .tc (Pipeline.arrRef spec2 w)) = (dat2 (VV3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-- The same read at the TensorCore's references (the last boundary's contents). -/
abbrev VV4 : (c : Dev nD) → (b : Ref sig .tc) → Buf (Elt F) ((c : Thread nD τ).loc b) := fun c b => W4 m c b

/-- At a launch's exit each of its arrays holds what the pipeline leaves and every other buffer what it held at entry. -/
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
theorem hF1 (c : Dev nD) (w : Fin cfg1.W) : (dat1 (VV1 m) c).arrAt w cfg1.N = VV2 m c (Pipeline.arrRef spec1 w) :=
  (W2_arr m c w).symm
theorem hrest1 (c : Dev nD) : ∀ b, b ∉ Finset.univ.image (Pipeline.arrRef spec1) → VV2 m c b = VV1 m c b :=
  fun b hb => W2_of_ne m c b fun w e => hb (Finset.mem_image.mpr ⟨w, Finset.mem_univ _, e⟩)
theorem hF2 (c : Dev nD) (w : Fin cfg2.W) : (dat2 (VV3 m) c).arrAt w cfg2.N = VV4 m c (Pipeline.arrRef spec2 w) :=
  (W4_arr m c w).symm
theorem hrest2 (c : Dev nD) : ∀ b, b ∉ Finset.univ.image (Pipeline.arrRef spec2) → VV4 m c b = VV3 m c b :=
  fun b hb => W4_of_ne m c b fun w e => hb (Finset.mem_image.mpr ⟨w, Finset.mem_univ _, e⟩)

/-! ## What each boundary holds where the value proof reads it -/

/-- The first launch reads X and W as launched. -/
theorem VV0_main_arg0 (c : Dev nD) : VV0 m c main_arg0 = m ((c : Thread nD τ).loc main_arg0) := rfl
theorem VV0_main_arg2 (c : Dev nD) : VV0 m c main_arg2 = m ((c : Thread nD τ).loc main_arg2) := rfl
/-- The second launch reads H as launched and the first launch's result array. -/
theorem VV1_main_arg1 (c : Dev nD) : VV1 m c main_arg1 = m ((c : Thread nD τ).loc main_arg1) :=
  (W1_of_ne m c main_arg1 (by decide)).trans rfl
theorem VV1_main_v0 (c : Dev nD) : VV1 m c main_v0 = (dat0 (VV0 m) c).arrAt 2 cfg0.N :=
  W1_arr m c 2
/-- The third launch reads H as launched, the second launch's result array and the reshaped bias. -/
theorem VV3_main_arg1 (c : Dev nD) : VV3 m c main_arg1 = m ((c : Thread nD τ).loc main_arg1) :=
  calc VV3 m c main_arg1
    _ = W2 m c (Proc.devRef .tc main_arg1) := W3_of_ne m c main_arg1 (by decide)
    _ = VV1 m c main_arg1 := (W2_arr m c 0).trans (((dat1 (VV1 m) c).arrAt_in 0 rfl _).trans (A_eq1 (VV1 m) c 0))
    _ = m ((c : Thread nD τ).loc main_arg1) := VV1_main_arg1 m c
theorem VV3_main_v1 (c : Dev nD) : VV3 m c main_v1 = (dat1 (VV1 m) c).arrAt 2 cfg1.N :=
  (W3_of_ne m c main_v1 (by decide)).trans (W2_arr m c 2)
theorem VV3_main_v2 (c : Dev nD) :
    VV3 m c main_v2 = shapeCast S1x128 (m ((c : Thread nD τ).loc main_arg3)) shapeCasts_S128_S1x128 := by
  have harg : W2 m c (Proc.devRef .tc main_arg3) = m ((c : Thread nD τ).loc main_arg3) :=
    (W2_of_ne m c main_arg3 (by decide)).trans ((W1_of_ne m c main_arg3 (by decide)).trans rfl)
  show StableHlo.after hostOps2 (W2 m c) (Proc.devRef .tc main_v2) = _
  simp only [hostOps2, StableHlo.after_cons, StableHlo.after_nil]
  rw [StableHlo.reshape_result, harg]
  rfl
/-- The result array at the end is what the third launch's write-backs fold to. -/
theorem W4_main_v3 (c : Dev nD) : W4 m c (Proc.devRef .tc main_v3) = (dat2 (VV3 m) c).arrAt 3 cfg2.N :=
  W4_arr m c 3
/-- The arguments end as launched: no launch writes one back and the reshape writes only the bias row's buffer. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (VV0 m) c).arrAt_in 0 rfl _).trans (A_eq0 (VV0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = VV3 m c main_arg1 := (W4_arr m c 0).trans (((dat2 (VV3 m) c).arrAt_in 0 rfl _).trans (A_eq2 (VV3 m) c 0))
    _ = m ((c : Thread nD τ).loc main_arg1) := VV3_main_arg1 m c
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := (W1_arr m c 1).trans (((dat0 (VV0 m) c).arrAt_in 1 rfl _).trans (A_eq0 (VV0 m) c 1))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-! ## The proof data family and the thread state -/

/-- The prefetched tables' admissible contents: no pipeline has a table. -/
abbrev adm : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
  | ⟨2, _⟩ => fun c => dat2 (VV3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at `W0`, left at `W1`.  Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W1`, left at `W2`.  Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VV1 m) c)
    unfold Pipeline.ΦA
    iintro ⟨Hp, -, Hr⟩
    isplitl [Hr]; · iexact Hr
    iexact Hp
  hout c := by
    rw [Pipeline.ownSems0_none]
    refine (hout1 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV1 m c) (VV2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W3`, left at `W4`.  Its arrays
    are split out of the unscoped buffers and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VV3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV3 m c) (VV4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four segments in order: a region per launch, a host segment for the reshape. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m) ]
/-- @main is the run of the segments. -/
theorem main_run (c : Dev nD) : main (F := F) c = Pipeline.Seg.run (segs m) := (main_chain c).trans (by chain_rfl)

/-! ## The run -/

set_option backward.isDefEq.respectTransparency.types false in
/-- At the compiled mesh, from any memory with zero counters, every weakly fair execution of @main terminates,
    nothing faulting, and every final state holds the result array at the last boundary's contents and the four
    arguments as launched. -/
theorem run_all : θ_run defs (onTc (τ := τ) (main (F := F))) ⟨m, fun _ => 0, ρ⟩ (fun r => ∀ c : Dev nD,
      r.2.mem ((c.tc : Thread nD τ).loc main_v3) = (dat2 (VV3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_main_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Hand

end
-- ==== Proof.Spec.lean ====
/-
  The mathematics of the hypergraph convolution, over the extended reals, index by index.

    xw[n, g]   = sum_k X[n, k] W[k, g]            for g < 128,   1 for 128 <= g < 256
    acc[e, g]  = sum_n H[n, e] xw[n, g]
    m[e, f]    = acc[e, f] / (acc[e, 128 + f] + eps)
    out[n, f]  = max ((sum_e H[n, e] m[e, f]) / (sum_e H[n, e] + eps) + b[f], 0)

  The high half of `xw` is the constant one, so the high half of `acc` is the column sum of `H`: the edge
  degree rides through the same accumulation as the messages.  A sum over the 20000 nodes taken as fifty
  consecutive blocks of 400 is the same sum: addition of extended reals is commutative and associative.
-/
import Idealize.ShloMosaic.PureOps.Ideal
import Idealize.ShloMosaic.Lib.ValueIdx
import Mathlib.Algebra.BigOperators.Fin
import Mathlib.Data.Fintype.BigOperators
import Mathlib.Logic.Equiv.Fin.Basic

noncomputable section

namespace Cert.Spec

open Idealize.ShloMosaic Idealize.ShloMosaic.ValueIdx

/-- A two-axis array of extended reals. -/
abbrev Arr2 (n0 n1 : Nat) : Type := (⟨2, ![n0, n1]⟩ : Shape).Idx → EReal
abbrev Arr1 (n0 : Nat) : Type := (⟨1, ![n0]⟩ : Shape).Idx → EReal

/-- The small constant both programs add to a degree before dividing by it: the same binary32 pattern on both sides. -/
abbrev eps : EReal := Ideal.ofBits .f32 0x2B8CBCCC#32
/-- The zero both programs clamp at: the same binary32 pattern on both sides. -/
abbrev z0 : EReal := Ideal.ofBits .f32 0x00000000#32

/-- The augmented product: X W in the low 128 columns, ones in the high 128. -/
def xwAt (X : Arr2 20000 128) (W : Arr2 128 128) (n : Fin 20000) (g : Fin 256) : EReal :=
  if h : g.val < 128 then ∑ k : Fin 128, X (ix2 n k) * W (ix2 k ⟨g.val, h⟩) else 1

def xw (X : Arr2 20000 128) (W : Arr2 128 128) : Arr2 20000 256 := fun j => xwAt X W (j 0) (j 1)

/-- The accumulation over all nodes. -/
def accAt (H : Arr2 20000 5000) (v : Arr2 20000 256) (e : Fin 5000) (g : Fin 256) : EReal :=
  ∑ n : Fin 20000, H (ix2 n e) * v (ix2 n g)

/-- The same accumulation taken as fifty consecutive blocks of 400 nodes. -/
def accBlocksAt (H : Arr2 20000 5000) (v : Arr2 20000 256) (e : Fin 5000) (g : Fin 256) : EReal :=
  ∑ t : Fin 50, ∑ r : Fin 400, H (ix2 ⟨400 * t.val + r.val, by omega⟩ e) * v (ix2 ⟨400 * t.val + r.val, by omega⟩ g)

/-- The edge messages scaled by the edge degrees. -/
def mscAt (H : Arr2 20000 5000) (v : Arr2 20000 256) (e : Fin 5000) (f : Fin 128) : EReal :=
  Ideal.div (accAt H v e ⟨f.val, by omega⟩) (accAt H v e ⟨128 + f.val, by omega⟩ + eps)

def msc (H : Arr2 20000 5000) (v : Arr2 20000 256) : Arr2 5000 128 := fun j => mscAt H v (j 0) (j 1)

/-- The node update. -/
def outAt (H : Arr2 20000 5000) (M : Arr2 5000 128) (b : Arr2 1 128) (n : Fin 20000) (f : Fin 128) : EReal :=
  max (Ideal.div (∑ e : Fin 5000, H (ix2 n e) * M (ix2 e f)) ((∑ e : Fin 5000, H (ix2 n e)) + eps) + b (ix2 0 f)) z0

def outv (H : Arr2 20000 5000) (M : Arr2 5000 128) (b : Arr2 1 128) : Arr2 20000 128 := fun j => outAt H M b (j 0) (j 1)

/-- The bias vector laid out as a one-row array. -/
def brow (b : Arr1 128) : Arr2 1 128 := fun j => b (ix1 (j 1))

/-- A sum over 20000 consecutive indices is the sum over fifty blocks of 400. -/
theorem sum_blocks {M : Type*} [AddCommMonoid M] (f : Fin 20000 → M) :
    ∑ t : Fin 50, ∑ r : Fin 400, f ⟨400 * t.val + r.val, by omega⟩ = ∑ n : Fin 20000, f n := by
  rw [← Fintype.sum_prod_type']
  refine Fintype.sum_equiv ((finProdFinEquiv (m := 50) (n := 400)).trans (finCongr (show 50 * 400 = 20000 from rfl))) _ _ (fun x => ?_)
  congr 1
  apply Fin.ext
  simp [finProdFinEquiv]
  omega

theorem accBlocksAt_eq (H : Arr2 20000 5000) (v : Arr2 20000 256) (e : Fin 5000) (g : Fin 256) :
    accBlocksAt H v e g = accAt H v e g :=
  sum_blocks (fun n => H (ix2 n e) * v (ix2 n g))

end Cert.Spec

end
-- ==== Proof.KI.Val0.lean ====
/-
  The first launch's result array over the extended reals: every row block of 2000 writes back, in its low 128
  columns, the matrix product of its rows of X with W (a matrix unit product into a zero accumulator is the plain
  sum over the contracted axis; the change of float format is the identity) and ones in its high 128 columns; the
  ten blocks tile the array.  So the array is `Spec.xw` of X and W.
-/
import proofs.«118258_j69604239999586_1_alg».proof.Proof.KI.Reg0
import proofs.«118258_j69604239999586_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val0
open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's payloads at an index -/

/-- The binary32 word of the constant the body broadcasts is the extended real one. -/
theorem ofBits_one_f32 : Ideal.ofBits .f32 0x3F800000#32 = (1 : EReal) := by
  simp [Ideal.ofBits, Ideal.ieee, -EReal.coe_mul]; norm_num

/-- The second payload is one everywhere. -/
theorem pay2_apply (j : S2000x128.Idx) : k0_pay2 (F := Ideal) j = (1 : EReal) := by
  unfold k0_pay2
  exact ofBits_one_f32

/-- The operand indices of the matrix unit's product, axis by axis: the left operand is read at the output's row and the
    contracted coordinate, the right one at the contracted coordinate and the output's column. -/
theorem lhs_xw_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_xw_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_xw_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_xw_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The first payload at row `p`, column `q`: the product of the row of the first operand with the column of the
    second, summed over the 128 contracted coordinates. -/
theorem pay1_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]
  rfl

/-! ## What the body leaves in the block, at an index -/

theorem hz0 : (![0, 0] : Fin 2 → Nat) = fun _ => 0 := funext fun a => by fin_cases a <;> rfl

/-- The low store's payload at a row and a column of the block, from what the input blocks hold. -/
theorem lo_piece_apply (x0 : Vec Ideal S2000x128 .f32) (x1 : Vec Ideal S128x128 .f32) (x : S2000x128.Idx) :
    k0_pay1 (F := Ideal) (View.ld x0 r0_in0) (View.ld x1 r0_in1) x = ∑ k : Fin 128, x0 (ix2 (x 0) k) * x1 (ix2 k (x 1)) := by
  rw [View.ld_unit_zero (S := S2000x128) hz0, View.ld_unit_zero (S := S128x128) hz0]
  obtain ⟨p, q, rfl⟩ : ∃ (p : Fin 2000) (q : Fin 128), x = ix2 p q := ⟨x 0, x 1, eq_ix2 x⟩
  exact pay1_apply x0 x1 p q

/-- The block after the body as one function of its row and column: the product of the row of the first input block
    with the column of the second in the low 128 columns, one in the high 128. -/
def blockFn (x0 : Vec Ideal S2000x128 .f32) (x1 : Vec Ideal S128x128 .f32) : S2000x256.Idx → EReal := fun y =>
  if h : (y 1).val < 128 then ∑ k : Fin 128, x0 (ix2 (y 0) k) * x1 (ix2 k ⟨(y 1).val, h⟩) else 1

theorem out0_2_apply (x0 : Vec Ideal S2000x128 .f32) (x1 : Vec Ideal S128x128 .f32) (j : S2000x256.Idx) :
    out0_2 x0 x1 j = blockFn x0 x1 j := by
  unfold out0_2
  refine View.canon_apply_of_pieces (Val := Elt Ideal) (S := S2000x256) (e := .f32) (blockFn x0 x1) _ ?_ j (cover0_2 _ _ j)
  intro p hp
  simp only [List.mem_cons, List.not_mem_nil, or_false] at hp
  rcases hp with rfl | rfl
  · -- the high half: ones
    intro x
    have h1 : ((r0_hi.emb x) 1).val = 128 + 1 * (x 1).val := rfl
    have hge : ¬ ((r0_hi.emb x) 1).val < 128 := by omega
    show k0_pay2 (F := Ideal) x = blockFn x0 x1 (r0_hi.emb x)
    refine (pay2_apply x).trans ?_
    unfold blockFn
    rw [dif_neg hge]
  · -- the low half: the product
    intro x
    have hx : (x 1).val < 128 := (x 1).isLt
    have h1 : ((r0_lo.emb x) 1).val = 0 + 1 * (x 1).val := rfl
    have hlt : ((r0_lo.emb x) 1).val < 128 := by omega
    have e0 : (r0_lo.emb x) 0 = x 0 := Fin.ext (by show 0 + 1 * (x 0).val = (x 0).val; omega)
    have e1 : (⟨((r0_lo.emb x) 1).val, hlt⟩ : Fin 128) = x 1 := Fin.ext (by show 0 + 1 * (x 1).val = (x 1).val; omega)
    show k0_pay1 (F := Ideal) (View.ld x0 r0_in0) (View.ld x1 r0_in1) x = blockFn x0 x1 (r0_lo.emb x)
    refine (lo_piece_apply x0 x1 x).trans ?_
    unfold blockFn
    rw [dif_pos hlt, e0, e1]

/-- One block against the specification: if the first input block holds rows `2000 b …` of `X` and the second holds
    `W`, the block after the body at row `r`, column `g` is the augmented product at row `2000 b + r`, column `g`. -/
theorem blockFn_eq_xw (X : Cert.Spec.Arr2 20000 128) (W : Cert.Spec.Arr2 128 128)
    (x0 : Vec Ideal S2000x128 .f32) (x1 : Vec Ideal S128x128 .f32) (b : Nat)
    (h0 : ∀ (x : S2000x128.Idx) (k : S20000x128.Idx), (k 0).val = 2000 * b + (x 0).val → (k 1).val = (x 1).val → x0 x = X k)
    (h1 : ∀ x : S128x128.Idx, x1 x = W x)
    (j : S2000x256.Idx) (i : S20000x256.Idx) (hi0 : (i 0).val = 2000 * b + (j 0).val) (hi1 : (i 1).val = (j 1).val) :
    blockFn x0 x1 j = Cert.Spec.xw X W i := by
  unfold blockFn Cert.Spec.xw Cert.Spec.xwAt
  by_cases h : (j 1).val < 128
  · have h' : (i 1).val < 128 := by omega
    rw [dif_pos h, dif_pos h']
    refine Finset.sum_congr rfl fun k _ => ?_
    rw [h0 (ix2 (j 0) k) (ix2 (i 0) k) hi0 rfl, h1 (ix2 k ⟨(j 1).val, h⟩)]
    exact congrArg (fun q : Fin 128 => X (ix2 (i 0) k) * W (ix2 k q)) (Fin.ext hi1.symm)
  · have h' : ¬ (i 1).val < 128 := by omega
    rw [dif_neg h, dif_neg h']

/-! ## From blocks to the array -/

variable (V : (c : Dev nD) → (b : Ref sig .tc) → Buf (Elt Ideal) ((c : Thread nD τ).loc b))

/-- The printed index maps, decided once over the grid: at point `t` the first input's block and the output's block
    are row block `t` (the only column block), the second input's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input's block at point `t` is rows `2000 t … 2000 t + 1999` of X. -/
theorem iblk0_0_apply (c : Dev nD) (t : Fin cfg0.N) (x : S2000x128.Idx) (k : S20000x128.Idx)
    (hk0 : (k 0).val = 2000 * t.val + (x 0).val) (hk1 : (k 1).val = (x 1).val) :
    (iblk0 V c 0 t : Vec Ideal S2000x128 .f32) x = (V c main_arg0 : S20000x128.Idx → EReal) k := by
  obtain ⟨e0, e1, -⟩ := idx_facts0 t
  show V c main_arg0 (((cfg0.win 0).blk t).view.emb x) = V c main_arg0 k
  refine congrArg (V c main_arg0) (funext fun a => Fin.ext ?_)
  match a with
  | ⟨0, _⟩ => show win0_0.index t (0 : Fin 2) * 2000 + 1 * (x 0).val = (k 0).val; omega
  | ⟨1, _⟩ => show win0_0.index t (1 : Fin 2) * 128 + 1 * (x 1).val = (k 1).val; omega

/-- The second input's block at every point is the whole of W. -/
theorem iblk0_1_apply (c : Dev nD) (t : Fin cfg0.N) (x : S128x128.Idx) :
    (iblk0 V c 1 t : Vec Ideal S128x128 .f32) x = (V c main_arg2 : S128x128.Idx → EReal) x := by
  obtain ⟨-, -, e2, e3, -⟩ := idx_facts0 t
  show V c main_arg2 (((cfg0.win 1).blk t).view.emb x) = V c main_arg2 x
  refine congrArg (V c main_arg2) (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- What point `t` writes back is block `t` of the augmented product of the two arrays. -/
theorem flushed0_eq (c : Dev nD) (t : Fin cfg0.N) :
    (dat0 V c).flushed 2 t = ((cfg0.win 2).blk t).view.read (Elt Ideal) (Cert.Spec.xw (V c main_arg0) (V c main_arg2)) := by
  show (cfg0.win 2).cut (grid0.coords t) ((dat0 V c).after 2 t) = _
  rw [after0_2]
  obtain ⟨-, -, -, -, e4, e5⟩ := idx_facts0 t
  funext j
  show out0_2 (iblk0 V c 0 t) (iblk0 V c 1 t) j = Cert.Spec.xw (V c main_arg0) (V c main_arg2) (((cfg0.win 2).blk t).view.emb j)
  refine (out0_2_apply (iblk0 V c 0 t) (iblk0 V c 1 t) j).trans ?_
  refine blockFn_eq_xw (V c main_arg0) (V c main_arg2) (iblk0 V c 0 t) (iblk0 V c 1 t) t.val
    (fun x k hk0 hk1 => iblk0_0_apply V c t x k hk0 hk1) (fun x => iblk0_1_apply V c t x) j (((cfg0.win 2).blk t).view.emb j) ?_ ?_
  · show win0_2.index t (0 : Fin 2) * 2000 + 1 * (j 0).val = 2000 * t.val + (j 0).val; omega
  · show win0_2.index t (1 : Fin 2) * 256 + 1 * (j 1).val = (j 1).val; omega

/-- An index of the array is in point `t`'s block iff each coordinate is in the block's range on its axis. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every index of the array is in the block of the point its row falls in: row `r` is in block `r / 2000`. -/
theorem cover0 (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  have ht : (i 0).val / 2000 < cfg0.N := by show (i 0).val / 2000 < 10; omega
  refine ⟨⟨(i 0).val / 2000, ht⟩, flush0_2 _, ?_⟩
  obtain ⟨-, -, -, -, e4, e5⟩ := idx_facts0 ⟨(i 0).val / 2000, ht⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, ht⟩ (1 : Fin 2) * 256 ≤ (i 1).val ∧ (i 1).val < win0_2.index ⟨(i 0).val / 2000, ht⟩ (1 : Fin 2) * 256 + 256; rw [e5]; omega

/-- The first launch leaves in its result array the augmented product of the two arrays it reads. -/
theorem final0 (c : Dev nD) :
    (dat0 V c).arrAt 2 cfg0.N = Cert.Spec.xw (V c main_arg0) (V c main_arg2) :=
  (dat0 V c).arrAt_eq_of_cover 2 (Cert.Spec.xw (V c main_arg0) (V c main_arg2)) (fun t _ => flushed0_eq V c t) cover0

end Cert.KernelIdeal.Hand.Val0
end
-- ==== Proof.KI.Val1Pay.lean ====
/-
  The three payloads of the second launch read at an index, over the extended reals: the zero accumulator is zero
  everywhere; the update adds to the accumulator, at [e, g], the sum over the 400 rows r of the block of
  x0[r, e] * x1[r, g] (the left operand is contracted along its rows, that is, transposed); the scaling divides
  the low half by the high half plus eps.
-/
import proofs.«118258_j69604239999586_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val1
open Cert.KernelIdeal Cert.KernelIdeal.Gen
open Idealize.ShloMosaic Idealize.ShloMosaic.TcCoe Idealize.SL.Sem
open Idealize.ShloMosaic.ValueIdx

/-! ## The contraction's operand indices, axis by axis -/

theorem lhs_k1mm_0 (i : S5000x256.Idx) (q : dot_S400x5000_S400x256_S5000x256_0_0_1_1_n_n.contr.Idx) :
    (dot_S400x5000_S400x256_S5000x256_0_0_1_1_n_n.lhsIdx i q 0).val = (q ⟨0, by decide⟩).val :=
  dot_S400x5000_S400x256_S5000x256_0_0_1_1_n_n.lhsIdx_val_of_single rfl i q
theorem lhs_k1mm_1 (i : S5000x256.Idx) (q : dot_S400x5000_S400x256_S5000x256_0_0_1_1_n_n.contr.Idx) :
    (dot_S400x5000_S400x256_S5000x256_0_0_1_1_n_n.lhsIdx i q 1).val = (i 0).val := by
  unfold DotDims.lhsIdx
  rw [dif_neg (show ¬(1 : Fin S400x5000.rank) ∈ dot_S400x5000_S400x256_S5000x256_0_0_1_1_n_n.lhsBatch by decide), dif_pos (show (1 : Fin S400x5000.rank) ∈ dot_S400x5000_S400x256_S5000x256_0_0_1_1_n_n.lhsNonContracting by decide)]
  rfl
theorem rhs_k1mm_0 (i : S5000x256.Idx) (q : dot_S400x5000_S400x256_S5000x256_0_0_1_1_n_n.contr.Idx) :
    (dot_S400x5000_S400x256_S5000x256_0_0_1_1_n_n.rhsIdx i q 0).val = (q ⟨0, by decide⟩).val :=
  dot_S400x5000_S400x256_S5000x256_0_0_1_1_n_n.rhsIdx_val_of_single rfl i q
theorem rhs_k1mm_1 (i : S5000x256.Idx) (q : dot_S400x5000_S400x256_S5000x256_0_0_1_1_n_n.contr.Idx) :
    (dot_S400x5000_S400x256_S5000x256_0_0_1_1_n_n.rhsIdx i q 1).val = (i 1).val := by
  unfold DotDims.rhsIdx
  rw [dif_neg (show ¬(1 : Fin S400x256.rank) ∈ dot_S400x5000_S400x256_S5000x256_0_0_1_1_n_n.rhsBatch by decide), dif_pos (show (1 : Fin S400x256.rank) ∈ dot_S400x5000_S400x256_S5000x256_0_0_1_1_n_n.rhsNonContracting by decide)]
  rfl

/-- The product of the transposed 400 x 5000 block with the 400 x 256 block into a zero accumulator, at [e, g]:
    the sum over the block's rows. -/
theorem k1mm_apply (x0 : FVec Ideal S400x5000 .bf16) (x1 : FVec Ideal S400x256 .bf16) (e : Fin 5000) (g : Fin 256) :
    FloatOps.matmul dot_S400x5000_S400x256_S5000x256_0_0_1_1_n_n none x0 x1 (constant (F := Ideal) S5000x256 .f32 0x00000000#32) (ix2 e g)
      = ∑ r : Fin 400, x0 (ix2 r e) * x1 (ix2 r g) := by
  rw [Ideal.matmul_constant_zero_apply, ← Equiv.sum_comp (ValueIdx.contrEquiv1 dot_S400x5000_S400x256_S5000x256_0_0_1_1_n_n 400 rfl rfl).symm]
  refine Finset.sum_congr rfl fun k _ => ?_
  have hk := ValueIdx.contrEquiv1_symm_val dot_S400x5000_S400x256_S5000x256_0_0_1_1_n_n 400 rfl rfl k
  have el : dot_S400x5000_S400x256_S5000x256_0_0_1_1_n_n.lhsIdx (ix2 e g) ((ValueIdx.contrEquiv1 dot_S400x5000_S400x256_S5000x256_0_0_1_1_n_n 400 rfl rfl).symm k) = ix2 k e := funext fun a => Fin.ext (by
    match a with
    | ⟨0, _⟩ => exact (lhs_k1mm_0 _ _).trans hk
    | ⟨1, _⟩ => exact lhs_k1mm_1 _ _)
  have er : dot_S400x5000_S400x256_S5000x256_0_0_1_1_n_n.rhsIdx (ix2 e g) ((ValueIdx.contrEquiv1 dot_S400x5000_S400x256_S5000x256_0_0_1_1_n_n 400 rfl rfl).symm k) = ix2 k g := funext fun a => Fin.ext (by
    match a with
    | ⟨0, _⟩ => exact (rhs_k1mm_0 _ _).trans hk
    | ⟨1, _⟩ => exact rhs_k1mm_1 _ _)
  rw [el, er]

/-! ## The payloads at an index -/

/-- The zero accumulator is zero everywhere. -/
theorem pay1_apply (e : Fin 5000) (g : Fin 256) : (k1_pay1 (F := Ideal)) (ix2 e g) = 0 := by
  unfold k1_pay1
  rw [shapeCast_self]
  exact Ideal.ofBits_zero_f32

/-- The update at [e, g]: the accumulator's entry plus the sum over the block's rows of x0[r, e] * x1[r, g]. -/
theorem pay2_apply (x0 : Vec Ideal S400x5000 .f32) (x1 : Vec Ideal S400x256 .f32) (a : Vec Ideal S5000x256 .f32)
    (e : Fin 5000) (g : Fin 256) :
    k1_pay2 x0 x1 a (ix2 e g) = a (ix2 e g) + ∑ r : Fin 400, x0 (ix2 r e) * x1 (ix2 r g) := by
  unfold k1_pay2
  rw [shapeCast_self, shapeCast_self]
  exact congrArg (a (ix2 e g) + ·) (k1mm_apply _ _ e g)

/-- The scaling at [e, f]: the low half's entry over the high half's plus eps. -/
theorem pay3_apply (a : Vec Ideal S5000x128 .f32) (b : Vec Ideal S5000x128 .f32) (e : Fin 5000) (f : Fin 128) :
    k1_pay3 a b (ix2 e f) = Ideal.div (a (ix2 e f)) (b (ix2 e f) + Ideal.ofBits .f32 0x2B8CBCCC#32) := rfl

end Cert.KernelIdeal.Hand.Val1
end
-- ==== Proof.KI.Val1.lean ====
/-
  The second launch's result array over the extended reals: the scratch after point t holds, at [e, g], the sum
  over the row blocks 0..t of sum_r H[400 s + r, e] * v[400 s + r, g] (the zero accumulator plus each block's
  transposed product); only the last point writes back, the low half over the high half plus eps, one block that
  is the whole array.  So the array is `Spec.msc` of H and the array v the launch reads.
-/
import proofs.«118258_j69604239999586_1_alg».proof.Proof.KI.Reg1
import proofs.«118258_j69604239999586_1_alg».proof.Proof.KI.Val1Pay
import proofs.«118258_j69604239999586_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val1
open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The two arrays the launch reads, and the blocks of them the body loads at a point, at their literal types. -/
abbrev harr (c : Dev nD) : Vec Ideal S20000x5000 .f32 := V c main_arg1
abbrev varr (c : Dev nD) : Vec Ideal S20000x256 .f32 := V c main_v0
abbrev hblk (c : Dev nD) (t : Fin cfg1.N) : Vec Ideal S400x5000 .f32 := iblk1 V c 0 t
abbrev vblk (c : Dev nD) (t : Fin cfg1.N) : Vec Ideal S400x256 .f32 := iblk1 V c 1 t

/-- The printed index maps, decided over the grid: the two inputs' blocks move down the rows with the point,
    the output's one block stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row r of the H block at point t is row 400 t + r of H. -/
theorem hblk_apply (c : Dev nD) (t : Fin cfg1.N) (r : Fin 400) (e : Fin 5000) (h : 400 * t.val + r.val < 20000) :
    hblk V c t (ix2 r e) = harr V c (ix2 ⟨400 * t.val + r.val, h⟩ e) := by
  obtain ⟨e0, e1, -, -, -, -⟩ := idx_facts1 t
  show V c main_arg1 (((cfg1.win 0).blk t).view.emb (ix2 r e)) = V c main_arg1 (ix2 ⟨400 * t.val + r.val, h⟩ e)
  refine congrArg (V c main_arg1) (funext fun a => Fin.ext ?_)
  match a with
  | ⟨0, _⟩ => show win1_0.index t (0 : Fin 2) * 400 + 1 * r.val = 400 * t.val + r.val; omega
  | ⟨1, _⟩ => show win1_0.index t (1 : Fin 2) * 5000 + 1 * e.val = e.val; omega

/-- Row r of the v block at point t is row 400 t + r of v. -/
theorem vblk_apply (c : Dev nD) (t : Fin cfg1.N) (r : Fin 400) (g : Fin 256) (h : 400 * t.val + r.val < 20000) :
    vblk V c t (ix2 r g) = varr V c (ix2 ⟨400 * t.val + r.val, h⟩ g) := by
  obtain ⟨-, -, e0, e1, -, -⟩ := idx_facts1 t
  show V c main_v0 (((cfg1.win 1).blk t).view.emb (ix2 r g)) = V c main_v0 (ix2 ⟨400 * t.val + r.val, h⟩ g)
  refine congrArg (V c main_v0) (funext fun a => Fin.ext ?_)
  match a with
  | ⟨0, _⟩ => show win1_1.index t (0 : Fin 2) * 400 + 1 * r.val = 400 * t.val + r.val; omega
  | ⟨1, _⟩ => show win1_1.index t (1 : Fin 2) * 256 + 1 * g.val = g.val; omega

/-! ## The accumulation, block by block -/

/-- One row block's share of the accumulation at [e, g]. -/
def blockTerm (H : Cert.Spec.Arr2 20000 5000) (v : Cert.Spec.Arr2 20000 256) (e : Fin 5000) (g : Fin 256) (s : ℕ) (hs : s < 50) : EReal :=
  ∑ r : Fin 400, H (ix2 ⟨400 * s + r.val, by omega⟩ e) * v (ix2 ⟨400 * s + r.val, by omega⟩ g)

/-- The accumulation over the row blocks 0..n. -/
def accUpTo (H : Cert.Spec.Arr2 20000 5000) (v : Cert.Spec.Arr2 20000 256) (e : Fin 5000) (g : Fin 256) (n : ℕ) (hn : n < 50) : EReal :=
  ∑ s : Fin (n + 1), blockTerm H v e g s.val (by omega)

theorem accUpTo_zero (H : Cert.Spec.Arr2 20000 5000) (v : Cert.Spec.Arr2 20000 256) (e : Fin 5000) (g : Fin 256) (h : 0 < 50) :
    accUpTo H v e g 0 h = blockTerm H v e g 0 h := by
  unfold accUpTo
  exact Fin.sum_univ_one _

theorem accUpTo_succ (H : Cert.Spec.Arr2 20000 5000) (v : Cert.Spec.Arr2 20000 256) (e : Fin 5000) (g : Fin 256) (n : ℕ) (hn : n + 1 < 50) :
    accUpTo H v e g (n + 1) hn = accUpTo H v e g n (by omega) + blockTerm H v e g (n + 1) hn := by
  unfold accUpTo
  rw [Fin.sum_univ_castSucc]
  rfl

/-- All fifty blocks: the accumulation over all the rows. -/
theorem accUpTo_last (H : Cert.Spec.Arr2 20000 5000) (v : Cert.Spec.Arr2 20000 256) (e : Fin 5000) (g : Fin 256) (h : 49 < 50) :
    accUpTo H v e g 49 h = Cert.Spec.accAt H v e g := by
  rw [← Cert.Spec.accBlocksAt_eq]
  rfl

/-- The point's share, read off the blocks the body loads. -/
theorem block_share (c : Dev nD) (t : Fin cfg1.N) (e : Fin 5000) (g : Fin 256) (ht : t.val < 50) :
    ∑ r : Fin 400, hblk V c t (ix2 r e) * vblk V c t (ix2 r g) = blockTerm (harr V c) (varr V c) e g t.val ht := by
  unfold blockTerm
  refine Finset.sum_congr rfl fun r _ => ?_
  rw [hblk_apply V c t r e (by omega), vblk_apply V c t r g (by omega)]

/-- THE SCRATCH AFTER POINT n, at [e, g]: the accumulation over the row blocks 0..n. -/
theorem acc1_apply (c : Dev nD) (e : Fin 5000) (g : Fin 256) : ∀ (n : ℕ) (hn : n < cfg1.N) (hn' : n < 50),
    acc1 V c n hn (ix2 e g) = accUpTo (harr V c) (varr V c) e g n hn'
  | 0, hn, hn' => by
    show k1_pay2 (View.ld (hblk V c ⟨0, hn⟩) r1_in0) (View.ld (vblk V c ⟨0, hn⟩) r1_in1) (k1_pay1 (F := Ideal)) (ix2 e g) = _
    rw [View.ld_unit_zero (S := S400x5000) hz1, View.ld_unit_zero (S := S400x256) hz1]
    refine (pay2_apply (hblk V c ⟨0, hn⟩) (vblk V c ⟨0, hn⟩) (k1_pay1 (F := Ideal)) e g).trans ?_
    rw [pay1_apply, zero_add, accUpTo_zero]
    exact block_share V c ⟨0, hn⟩ e g hn'
  | n + 1, hn, hn' => by
    show k1_pay2 (View.ld (hblk V c ⟨n + 1, hn⟩) r1_in0) (View.ld (vblk V c ⟨n + 1, hn⟩) r1_in1)
      (View.ld (acc1 V c n (Nat.lt_of_succ_lt hn)) r1_sc) (ix2 e g) = _
    rw [View.ld_unit_zero (S := S400x5000) hz1, View.ld_unit_zero (S := S400x256) hz1, View.ld_unit_zero (S := S5000x256) hz1]
    refine (pay2_apply (hblk V c ⟨n + 1, hn⟩) (vblk V c ⟨n + 1, hn⟩) (acc1 V c n (Nat.lt_of_succ_lt hn)) e g).trans ?_
    rw [acc1_apply c e g n (Nat.lt_of_succ_lt hn) (by omega), accUpTo_succ]
    exact congrArg (accUpTo (harr V c) (varr V c) e g n (by omega) + ·) (block_share V c ⟨n + 1, hn⟩ e g hn')

/-! ## What the last point stores -/

/-- The accumulator's low half at [e, f] is its column f. -/
theorem ld_lo_apply (A : Vec Ideal S5000x256 .f32) (e : Fin 5000) (f : Fin 128) :
    View.ld A r1_lo (ix2 e f) = A (ix2 e ⟨f.val, by omega⟩) := by
  show A (r1_lo.idx (ix2 e f)) = _
  refine congrArg A (funext fun a => Fin.ext ?_)
  match a with
  | ⟨0, _⟩ => show 0 + 1 * e.val = e.val; omega
  | ⟨1, _⟩ => show 0 + 1 * f.val = f.val; omega

/-- The accumulator's high half at [e, f] is its column 128 + f. -/
theorem ld_hi_apply (A : Vec Ideal S5000x256 .f32) (e : Fin 5000) (f : Fin 128) :
    View.ld A r1_hi (ix2 e f) = A (ix2 e ⟨128 + f.val, by omega⟩) := by
  show A (r1_hi.idx (ix2 e f)) = _
  refine congrArg A (funext fun a => Fin.ext ?_)
  match a with
  | ⟨0, _⟩ => show 0 + 1 * e.val = e.val; omega
  | ⟨1, _⟩ => show 128 + 1 * f.val = 128 + f.val; omega

/-- THE STORED BLOCK: the scaled edge messages of the two arrays the launch reads. -/
theorem mout1_eq (c : Dev nD) : (mout1 V c : Vec Ideal S5000x128 .f32) = Cert.Spec.msc (harr V c) (varr V c) := by
  funext j
  obtain ⟨e, f, rfl⟩ : ∃ (e : Fin 5000) (f : Fin 128), j = ix2 e f := ⟨j 0, j 1, eq_ix2 j⟩
  show k1_pay3 (View.ld (acc1 V c 49 h49) r1_lo) (View.ld (acc1 V c 49 h49) r1_hi) (ix2 e f) = Cert.Spec.mscAt (harr V c) (varr V c) e f
  refine (pay3_apply (View.ld (acc1 V c 49 h49) r1_lo) (View.ld (acc1 V c 49 h49) r1_hi) e f).trans ?_
  rw [ld_lo_apply, ld_hi_apply, acc1_apply V c e ⟨f.val, by omega⟩ 49 h49 (by omega),
    acc1_apply V c e ⟨128 + f.val, by omega⟩ 49 h49 (by omega), accUpTo_last, accUpTo_last]
  rfl

/-! ## From the one block to the array -/

/-- The one write-back, at the last point, writes the stored block: its block is the whole array. -/
theorem flushed1_eq (c : Dev nD) (t : Fin cfg1.N) :
    (dat1 V c).flushed 2 t = ((cfg1.win 2).blk t).view.read (Elt Ideal) (Cert.Spec.msc (harr V c) (varr V c)) := by
  show (cfg1.win 2).cut (grid1.coords t) ((dat1 V c).after 2 t) = _
  rw [after1_2, mout1_eq]
  obtain ⟨-, -, -, -, e0, e1⟩ := idx_facts1 t
  have hz' : (fun a => win1_2.index t a * main_v1.ty.shape.size a) = fun _ => 0 := funext fun a => by
    match a with
    | ⟨0, _⟩ => show win1_2.index t (0 : Fin 2) * 5000 = 0; omega
    | ⟨1, _⟩ => show win1_2.index t (1 : Fin 2) * 128 = 0; omega
  exact (Memref.read_access_unit_zero (Elt Ideal) main_v1 hz' (fun a => by rw [congrFun hz' a]; simp) (Cert.Spec.msc (harr V c) (varr V c))).symm

/-- An index of the array is in point t's block iff each coordinate is in the block's range on its axis. -/
theorem mem_blk1 (t : Fin cfg1.N) (i : S5000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v1).slice (win1_2.rect t)).set ↔ _
  rw [View.set_slice_whole, Rect.mem_set_unit]
  exact Iff.rfl

/-- The last point writes back, and its block holds every index of the array. -/
theorem cover1 (i : S5000x128.Idx) : ∃ t : Fin cfg1.N, (cfg1.win 2).flush t = true ∧ i ∈ ((cfg1.win 2).blk t).view.set := by
  refine ⟨⟨49, h49⟩, (flush1_2 ⟨49, h49⟩).mpr rfl, ?_⟩
  obtain ⟨-, -, -, -, e0, e1⟩ := idx_facts1 ⟨49, h49⟩
  rw [mem_blk1]
  intro a
  have hi0 : (i 0).val < 5000 := (i 0).isLt
  have hi1 : (i 1).val < 128 := (i 1).isLt
  match a with
  | ⟨0, _⟩ => show win1_2.index ⟨49, h49⟩ (0 : Fin 2) * 5000 ≤ (i 0).val ∧ (i 0).val < win1_2.index ⟨49, h49⟩ (0 : Fin 2) * 5000 + 5000; omega
  | ⟨1, _⟩ => show win1_2.index ⟨49, h49⟩ (1 : Fin 2) * 128 ≤ (i 1).val ∧ (i 1).val < win1_2.index ⟨49, h49⟩ (1 : Fin 2) * 128 + 128; omega

/-- The second launch leaves in its result array the scaled edge messages of the two arrays it reads. -/
theorem final1 (c : Dev nD) :
    (dat1 V c).arrAt 2 cfg1.N = Cert.Spec.msc (V c main_arg1) (V c main_v0) :=
  (dat1 V c).arrAt_eq_of_cover 2 (Cert.Spec.msc (harr V c) (varr V c)) (fun t _ => flushed1_eq V c t) cover1

end Cert.KernelIdeal.Hand.Val1
end
-- ==== Proof.KI.Val2.lean ====
/-
  The third launch's result array over the extended reals: every row block of 400 writes back
  max ((H_blk M) / (rowsum(H_blk) + eps) + b, 0) (the matrix product and the lane sum are plain sums over the
  contracted axis); the fifty blocks tile the array.  So the array is `Spec.outv` of H, M and the bias row.
-/
import proofs.«118258_j69604239999586_1_alg».proof.Proof.KI.Reg2
import proofs.«118258_j69604239999586_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val2
open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix product of a row block with the message array, at an index -/

theorem lhs_k2_mm_0 (i : S400x128.Idx) (q : dot_S400x5000_S5000x128_S400x128_1_0_0_1_n_n.contr.Idx) :
    (dot_S400x5000_S5000x128_S400x128_1_0_0_1_n_n.lhsIdx i q 0).val = (i 0).val := by
  unfold DotDims.lhsIdx
  rw [dif_neg (show ¬(0 : Fin S400x5000.rank) ∈ dot_S400x5000_S5000x128_S400x128_1_0_0_1_n_n.lhsBatch by decide), dif_pos (show (0 : Fin S400x5000.rank) ∈ dot_S400x5000_S5000x128_S400x128_1_0_0_1_n_n.lhsNonContracting by decide)]
  rfl
theorem lhs_k2_mm_1 (i : S400x128.Idx) (q : dot_S400x5000_S5000x128_S400x128_1_0_0_1_n_n.contr.Idx) :
    (dot_S400x5000_S5000x128_S400x128_1_0_0_1_n_n.lhsIdx i q 1).val = (q ⟨0, by decide⟩).val :=
  dot_S400x5000_S5000x128_S400x128_1_0_0_1_n_n.lhsIdx_val_of_single rfl i q
theorem rhs_k2_mm_0 (i : S400x128.Idx) (q : dot_S400x5000_S5000x128_S400x128_1_0_0_1_n_n.contr.Idx) :
    (dot_S400x5000_S5000x128_S400x128_1_0_0_1_n_n.rhsIdx i q 0).val = (q ⟨0, by decide⟩).val :=
  dot_S400x5000_S5000x128_S400x128_1_0_0_1_n_n.rhsIdx_val_of_single rfl i q
theorem rhs_k2_mm_1 (i : S400x128.Idx) (q : dot_S400x5000_S5000x128_S400x128_1_0_0_1_n_n.contr.Idx) :
    (dot_S400x5000_S5000x128_S400x128_1_0_0_1_n_n.rhsIdx i q 1).val = (i 1).val := by
  unfold DotDims.rhsIdx
  rw [dif_neg (show ¬(1 : Fin S5000x128.rank) ∈ dot_S400x5000_S5000x128_S400x128_1_0_0_1_n_n.rhsBatch by decide), dif_pos (show (1 : Fin S5000x128.rank) ∈ dot_S400x5000_S5000x128_S400x128_1_0_0_1_n_n.rhsNonContracting by decide)]
  rfl

/-- Into the zero accumulator the product at (p, q) is the sum over the 5000 edges of row p times column q. -/
theorem mm2_apply {φ₁ φ₂ : FTy} (a : FVec Ideal S400x5000 φ₁) (b : FVec Ideal S5000x128 φ₂) (p : Fin 400) (q : Fin 128) :
    matmul dot_S400x5000_S5000x128_S400x128_1_0_0_1_n_n none a b (constant (F := Ideal) S400x128 .f32 0x00000000#32) (ix2 p q)
      = ∑ e : Fin 5000, a (ix2 p e) * b (ix2 e q) := by
  simp only [matmul]
  rw [Ideal.matmul_constant_zero_apply, ← Equiv.sum_comp (contrEquiv1 dot_S400x5000_S5000x128_S400x128_1_0_0_1_n_n 5000 rfl rfl).symm]
  refine Finset.sum_congr rfl fun k _ => ?_
  have hk := contrEquiv1_symm_val dot_S400x5000_S5000x128_S400x128_1_0_0_1_n_n 5000 rfl rfl k
  have el : dot_S400x5000_S5000x128_S400x128_1_0_0_1_n_n.lhsIdx (ix2 p q) ((contrEquiv1 dot_S400x5000_S5000x128_S400x128_1_0_0_1_n_n 5000 rfl rfl).symm k) = ix2 p k := funext fun a => Fin.ext (by
    match a with
    | ⟨0, _⟩ => exact lhs_k2_mm_0 _ _
    | ⟨1, _⟩ => exact (lhs_k2_mm_1 _ _).trans hk)
  have er : dot_S400x5000_S5000x128_S400x128_1_0_0_1_n_n.rhsIdx (ix2 p q) ((contrEquiv1 dot_S400x5000_S5000x128_S400x128_1_0_0_1_n_n 5000 rfl rfl).symm k) = ix2 k q := funext fun a => Fin.ext (by
    match a with
    | ⟨0, _⟩ => exact (rhs_k2_mm_0 _ _).trans hk
    | ⟨1, _⟩ => exact rhs_k2_mm_1 _ _)
  rw [el, er]

/-! ## The lane sum and the keepdims layout forms, at an index -/

/-- The sum over the lanes of row p. -/
theorem rowsum2_apply (x : FVec Ideal S400x5000 .f32) (hφ : FKind.Formats .f32)
    (hacc : (0x00000000#32 : BitVec 32) = 0x00000000#32) (p : Fin 400) :
    multiReduction (F := Ideal) .add [1] S400 x 0x00000000#32 reduces_S400x5000_S400 hφ hacc (ix1 p) = ∑ e : Fin 5000, x (ix2 p e) := by
  refine (Ideal.multiReduction_add_single x 0x00000000#32 reduces_S400x5000_S400 hφ hacc (ix1 p)).trans ?_
  refine Finset.sum_congr rfl fun k _ => ?_
  exact congrArg x (funext fun a => Fin.ext (by match a with | ⟨0, _⟩ => rfl | ⟨1, _⟩ => rfl))

/-- A vector [a] cast to a column [a, 1] reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The value the body stores at (p, q) of its block: the clamped, shifted quotient of the product's element by the row's lane sum plus eps. -/
theorem pay2_apply (x0 : Vec Ideal S400x5000 .f32) (x1 : Vec Ideal S5000x128 .f32) (x2 : Vec Ideal S1x128 .f32) (p : Fin 400) (q : Fin 128) :
    k2_pay1 x0 x1 x2 (ix2 p q)
      = max (Ideal.div (∑ e : Fin 5000, x0 (ix2 p e) * x1 (ix2 e q)) ((∑ e : Fin 5000, x0 (ix2 p e)) + Cert.Spec.eps) + x2 (ix2 (0 : Fin 1) q)) Cert.Spec.z0 := by
  unfold k2_pay1
  simp only [maximumf_apply, addf_apply, divf_apply, broadcast_apply]
  rw [mm2_apply, broadcastTo_a1_ab_apply, addf_apply, shapeCast_a_a1_apply, rowsum2_apply, broadcast_apply,
    broadcastTo_1b_ab_apply]
  simp only [truncf_apply, shapeCast_self]
  rfl

/-! ## From the fifty row blocks to the array -/

variable (V : (c : Dev nD) → (b : Ref sig .tc) → Buf (Elt Ideal) ((c : Thread nD τ).loc b))

theorem zero_off2 : (![0, 0] : Fin 2 → Nat) = fun _ => 0 := funext fun a => by fin_cases a <;> rfl

/-- The windows' block indices, decided over the grid: the block of H's rows and the block of the result move with
    the point, M and the bias row stay whole. -/
theorem blk_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the node update of H, M and the bias row. -/
theorem flushed2_eq (c : Dev nD) (t : Fin cfg2.N) :
    (dat2 V c).flushed 3 t = ((cfg2.win 3).blk t).view.read (Elt Ideal) (Cert.Spec.outv (V c main_arg1) (V c main_v1) (V c main_v2)) := by
  show (cfg2.win 3).cut (grid2.coords t) ((dat2 V c).after 3 t) = _
  rw [after2_3]
  unfold out2_3
  rw [View.canon_unit_zero zero_off2]
  simp only [View.ld_unit_zero (S := S400x5000) zero_off2, View.ld_unit_zero (S := S5000x128) zero_off2, View.ld_unit_zero (S := S1x128) zero_off2]
  obtain ⟨e00, e01, e10, e11, e20, e21, e30, e31⟩ := blk_idx2 t
  have ht : t.val < 50 := lt_of_lt_of_eq t.isLt N_2
  funext j
  obtain ⟨p, q, rfl⟩ : ∃ (p : Fin 400) (q : Fin 128), j = ix2 p q := ⟨j 0, j 1, eq_ix2 j⟩
  show k2_pay1 (iblk2 V c 0 t) (iblk2 V c 1 t) (iblk2 V c 2 t) (ix2 p q) = Cert.Spec.outv (V c main_arg1) (V c main_v1) (V c main_v2) (((cfg2.win 3).blk t).view.emb (ix2 p q))
  refine (pay2_apply _ _ _ p q).trans ?_
  have hp : p.val < 400 := p.isLt
  have hn : 400 * t.val + p.val < 20000 := by omega
  -- the block's element (p, q) sits at row 400 t + p of the array, and H's block is read at the same rows
  have h3 : ((cfg2.win 3).blk t).view.emb (ix2 p q) = ix2 (⟨400 * t.val + p.val, hn⟩ : Fin 20000) q := by
    funext a; apply Fin.ext
    match a with
    | ⟨0, _⟩ => show win2_3.index t (0 : Fin 2) * 400 + 1 * p.val = 400 * t.val + p.val; omega
    | ⟨1, _⟩ => show win2_3.index t (1 : Fin 2) * 128 + 1 * q.val = q.val; omega
  have h0 : ∀ e : Fin 5000, iblk2 V c 0 t (ix2 p e) = V c main_arg1 (ix2 (⟨400 * t.val + p.val, hn⟩ : Fin 20000) e) := fun e => by
    show V c main_arg1 (((cfg2.win 0).blk t).view.emb (ix2 p e)) = _
    refine congrArg _ (funext fun a => Fin.ext ?_)
    match a with
    | ⟨0, _⟩ => show win2_0.index t (0 : Fin 2) * 400 + 1 * p.val = 400 * t.val + p.val; omega
    | ⟨1, _⟩ => show win2_0.index t (1 : Fin 2) * 5000 + 1 * e.val = e.val; omega
  have h1 : ∀ e : Fin 5000, iblk2 V c 1 t (ix2 e q) = V c main_v1 (ix2 e q) := fun e => by
    show V c main_v1 (((cfg2.win 1).blk t).view.emb (ix2 e q)) = _
    refine congrArg _ (funext fun a => Fin.ext ?_)
    match a with
    | ⟨0, _⟩ => show win2_1.index t (0 : Fin 2) * 5000 + 1 * e.val = e.val; omega
    | ⟨1, _⟩ => show win2_1.index t (1 : Fin 2) * 128 + 1 * q.val = q.val; omega
  have h2 : iblk2 V c 2 t (ix2 (0 : Fin 1) q) = V c main_v2 (ix2 (0 : Fin 1) q) := by
    show V c main_v2 (((cfg2.win 2).blk t).view.emb (ix2 (0 : Fin 1) q)) = _
    refine congrArg _ (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 128 + 1 * q.val = q.val; omega
  refine Eq.trans ?_ (congrArg (Cert.Spec.outv (V c main_arg1) (V c main_v1) (V c main_v2)) h3).symm
  simp only [h0, h1, h2]
  rfl

/-- An index of the array is in point t's block iff each coordinate is in the block's range on its axis. -/
theorem mem_blk2 (t : Fin cfg2.N) (i : S20000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v3).slice (win2_3.rect t)).set ↔ _
  rw [View.set_slice_whole, Rect.mem_set_unit]
  exact Iff.rfl

/-- The fifty blocks tile the array: row r lies in the block of point r / 400. -/
theorem cover2 (i : S20000x128.Idx) :
    ∃ t : Fin cfg2.N, (cfg2.win 3).flush t = true ∧ i ∈ ((cfg2.win 3).blk t).view.set := by
  have hi0 : (i 0).val < 20000 := (i 0).isLt
  have hi1 : (i 1).val < 128 := (i 1).isLt
  have hlt : (i 0).val / 400 < cfg2.N := lt_of_lt_of_eq (by omega) N_2.symm
  obtain ⟨-, -, -, -, -, -, e30, e31⟩ := blk_idx2 ⟨(i 0).val / 400, hlt⟩
  have e30' : win2_3.index ⟨(i 0).val / 400, hlt⟩ (0 : Fin 2) = (i 0).val / 400 := e30
  refine ⟨⟨(i 0).val / 400, hlt⟩, flush2_3 _, ?_⟩
  rw [mem_blk2]
  intro a
  match a with
  | ⟨0, _⟩ =>
    show win2_3.index ⟨(i 0).val / 400, hlt⟩ (0 : Fin 2) * 400 ≤ (i 0).val ∧ (i 0).val < win2_3.index ⟨(i 0).val / 400, hlt⟩ (0 : Fin 2) * 400 + 400
    omega
  | ⟨1, _⟩ =>
    show win2_3.index ⟨(i 0).val / 400, hlt⟩ (1 : Fin 2) * 128 ≤ (i 1).val ∧ (i 1).val < win2_3.index ⟨(i 0).val / 400, hlt⟩ (1 : Fin 2) * 128 + 128
    omega

/-- The third launch leaves in its result array the node update of the three arrays it reads. -/
theorem final2 (c : Dev nD) :
    (dat2 V c).arrAt 3 cfg2.N = Cert.Spec.outv (V c main_arg1) (V c main_v1) (V c main_v2) :=
  (dat2 V c).arrAt_eq_of_cover 3 _ (fun t _ => flushed2_eq V c t) cover2

end Cert.KernelIdeal.Hand.Val2
end
-- ==== Proof.RefValue.lean ====
/-
  The reference over the extended reals: its host operations composed, read one at a time, are the same
  function of the four arguments as the three launches composed: X W by a dot product; the edge degree a column
  sum of H plus eps and the node degree a row sum plus eps; H^T (X W) over the edge degree; H times that over the
  node degree, plus the bias, clamped at zero.  The one law that joins the two sides: the accumulation of
  H[n, e] * 1 over the nodes is the column sum of H, and a sum started from the zero word is the plain sum.
-/
import proofs.«118258_j69604239999586_1_alg».proof.Proof.Spec
import proofs.«118258_j69604239999586_1_alg».proof.Proof.Gen.ReferenceIdeal.Run
import proofs.«118258_j69604239999586_1_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-! ## The reference's intermediate arrays, index by index -/

/-- The product X W at (n, f): the dot product of row n of X with column f of W. -/
theorem prod_at (X : (⟨S20000x128, .f32⟩ : BufTy).Contents (Elt Ideal)) (W : (⟨S128x128, .f32⟩ : BufTy).Contents (Elt Ideal))
    (n : Fin 20000) (f : Fin 128) :
    val_main_v0 (F := Ideal) X W (ix2 n f) = ∑ k : Fin 128, X (ix2 n k) * W (ix2 k f) := by
  have el : ∀ k : Fin 128, lidx_main_v0 (ix2 n f) k = ix2 n k := fun k =>
    funext fun a => Fin.ext (by match a with | ⟨0, _⟩ => rfl | ⟨1, _⟩ => rfl)
  have er : ∀ k : Fin 128, ridx_main_v0 (ix2 n f) k = ix2 k f := fun k =>
    funext fun a => Fin.ext (by match a with | ⟨0, _⟩ => rfl | ⟨1, _⟩ => rfl)
  rw [val_main_v0_apply]
  simp only [el, er]

/-- The edge degree at e: the column sum of H (a sum started from the zero word) plus eps. -/
theorem edgeDeg_at (H : (⟨S20000x5000, .f32⟩ : BufTy).Contents (Elt Ideal)) (e : Fin 5000) :
    val_main_v6 (F := Ideal) H (ix1 e) = (∑ n : Fin 20000, H (ix2 n e)) + Cert.Spec.eps := by
  have ei : ∀ n : Fin 20000, idx_main_v4 (ix1 e) n = ix2 n e := fun n =>
    funext fun a => Fin.ext (by match a with | ⟨0, _⟩ => rfl | ⟨1, _⟩ => rfl)
  rw [val_main_v6_apply, val_main_v4_apply, val_main_v5_apply, val_main_cst_1_apply, val_main_cst_2_apply]
  simp only [ei, Ideal.addf_def, Ideal.ofBits_def, Ideal.ofBits_zero_f32, zero_add]

/-- The node degree at n: the row sum of H (a sum started from the zero word) plus eps. -/
theorem nodeDeg_at (H : (⟨S20000x5000, .f32⟩ : BufTy).Contents (Elt Ideal)) (n : Fin 20000) :
    val_main_v3 (F := Ideal) H (ix1 n) = (∑ e : Fin 5000, H (ix2 n e)) + Cert.Spec.eps := by
  have ei : ∀ e : Fin 5000, idx_main_v1 (ix1 n) e = ix2 n e := fun e =>
    funext fun a => Fin.ext (by match a with | ⟨0, _⟩ => rfl | ⟨1, _⟩ => rfl)
  rw [val_main_v3_apply, val_main_v1_apply, val_main_v2_apply, val_main_cst_apply, val_main_cst_0_apply]
  simp only [ei, Ideal.addf_def, Ideal.ofBits_def, Ideal.ofBits_zero_f32, zero_add]

/-- The scaled edge messages at (e, f): (H^T (X W))[e, f] over the edge degree; the transpose reads H[n, e]. -/
theorem msg_at (X : (⟨S20000x128, .f32⟩ : BufTy).Contents (Elt Ideal)) (H : (⟨S20000x5000, .f32⟩ : BufTy).Contents (Elt Ideal))
    (W : (⟨S128x128, .f32⟩ : BufTy).Contents (Elt Ideal)) (e : Fin 5000) (f : Fin 128) :
    val_main_v11 (F := Ideal) X H W (ix2 e f)
      = Ideal.div (∑ n : Fin 20000, H (ix2 n e) * ∑ k : Fin 128, X (ix2 n k) * W (ix2 k f))
          ((∑ n : Fin 20000, H (ix2 n e)) + Cert.Spec.eps) := by
  have el : ∀ n : Fin 20000, idx_main_v7 (lidx_main_v8 (ix2 e f) n) = ix2 n e := fun n =>
    funext fun a => Fin.ext (by match a with | ⟨0, _⟩ => rfl | ⟨1, _⟩ => rfl)
  have er : ∀ n : Fin 20000, ridx_main_v8 (ix2 e f) n = ix2 n f := fun n =>
    funext fun a => Fin.ext (by match a with | ⟨0, _⟩ => rfl | ⟨1, _⟩ => rfl)
  have ed : idx_main_v9 (idx_main_v10 (ix2 e f)) = ix1 e :=
    funext fun a => Fin.ext (by match a with | ⟨0, _⟩ => rfl)
  rw [val_main_v11_apply, val_main_v8_apply, val_main_v10_apply, val_main_v9_apply, ed, edgeDeg_at]
  simp only [val_main_v7_apply, el, er, prod_at, Ideal.hostDivf_def]

/-! ## The specification's accumulation over the augmented product -/

/-- Over a low column the accumulation is H^T (X W). -/
theorem acc_lo (X : (⟨S20000x128, .f32⟩ : BufTy).Contents (Elt Ideal)) (H : (⟨S20000x5000, .f32⟩ : BufTy).Contents (Elt Ideal))
    (W : (⟨S128x128, .f32⟩ : BufTy).Contents (Elt Ideal)) (e : Fin 5000) (f : Fin 128) :
    Cert.Spec.accAt H (Cert.Spec.xw X W) e ⟨f.val, by omega⟩
      = ∑ n : Fin 20000, H (ix2 n e) * ∑ k : Fin 128, X (ix2 n k) * W (ix2 k f) := by
  unfold Cert.Spec.accAt
  refine Finset.sum_congr rfl fun n _ => ?_
  show H (ix2 n e) * Cert.Spec.xwAt X W n ⟨f.val, _⟩ = _
  unfold Cert.Spec.xwAt
  rw [dif_pos (show f.val < 128 from f.isLt)]

/-- Over a high column the augmented product is one, so the accumulation is the column sum of H. -/
theorem acc_hi (X : (⟨S20000x128, .f32⟩ : BufTy).Contents (Elt Ideal)) (H : (⟨S20000x5000, .f32⟩ : BufTy).Contents (Elt Ideal))
    (W : (⟨S128x128, .f32⟩ : BufTy).Contents (Elt Ideal)) (e : Fin 5000) (f : Fin 128) :
    Cert.Spec.accAt H (Cert.Spec.xw X W) e ⟨128 + f.val, by omega⟩ = ∑ n : Fin 20000, H (ix2 n e) := by
  unfold Cert.Spec.accAt
  refine Finset.sum_congr rfl fun n _ => ?_
  show H (ix2 n e) * Cert.Spec.xwAt X W n ⟨128 + f.val, _⟩ = _
  unfold Cert.Spec.xwAt
  rw [dif_neg (show ¬ 128 + f.val < 128 by omega), mul_one]

/-- The reference's scaled edge messages are the specification's. -/
theorem msg_eq (X : (⟨S20000x128, .f32⟩ : BufTy).Contents (Elt Ideal)) (H : (⟨S20000x5000, .f32⟩ : BufTy).Contents (Elt Ideal))
    (W : (⟨S128x128, .f32⟩ : BufTy).Contents (Elt Ideal)) (e : Fin 5000) (f : Fin 128) :
    val_main_v11 (F := Ideal) X H W (ix2 e f) = Cert.Spec.msc H (Cert.Spec.xw X W) (ix2 e f) := by
  show _ = Cert.Spec.mscAt H (Cert.Spec.xw X W) e f
  unfold Cert.Spec.mscAt
  rw [acc_lo, acc_hi, msg_at]

/-! ## The result -/

/-- The reference's result term is the composed specification of its four arguments. -/
theorem ref_eq (X : (⟨S20000x128, .f32⟩ : BufTy).Contents (Elt Ideal)) (H : (⟨S20000x5000, .f32⟩ : BufTy).Contents (Elt Ideal))
    (W : (⟨S128x128, .f32⟩ : BufTy).Contents (Elt Ideal)) (b : (⟨S128, .f32⟩ : BufTy).Contents (Elt Ideal)) :
    val_main_v19 (F := Ideal) X H W b
      = Cert.Spec.outv H (Cert.Spec.msc H (Cert.Spec.xw X W)) (Cert.Spec.brow b) := by
  funext i
  obtain ⟨n, f, rfl⟩ : ∃ (n : Fin 20000) (f : Fin 128), i = ix2 n f := ⟨i 0, i 1, eq_ix2 i⟩
  have el : ∀ e : Fin 5000, lidx_main_v12 (ix2 n f) e = ix2 n e := fun e =>
    funext fun a => Fin.ext (by match a with | ⟨0, _⟩ => rfl | ⟨1, _⟩ => rfl)
  have er : ∀ e : Fin 5000, ridx_main_v12 (ix2 n f) e = ix2 e f := fun e =>
    funext fun a => Fin.ext (by match a with | ⟨0, _⟩ => rfl | ⟨1, _⟩ => rfl)
  have ed : idx_main_v13 (idx_main_v14 (ix2 n f)) = ix1 n :=
    funext fun a => Fin.ext (by match a with | ⟨0, _⟩ => rfl)
  have eb : idx_main_v16 (idx_main_v17 (ix2 n f)) = ix1 f :=
    funext fun a => Fin.ext (by match a with | ⟨0, _⟩ => rfl)
  rw [val_main_v19_apply, val_main_v18_apply, val_main_v15_apply, val_main_v12_apply, val_main_v14_apply,
    val_main_v13_apply, ed, nodeDeg_at, val_main_v17_apply, val_main_v16_apply, eb, val_main_call0_v0_apply,
    val_main_call0_cst_apply]
  simp only [el, er, msg_eq, Ideal.maximumf_def, Ideal.addf_def, Ideal.hostDivf_def, Ideal.ofBits_def]
  rfl

end Cert.ReferenceIdeal.RefValue

end
-- ==== Proof.lean ====
/-
  The certificate of the hypergraph convolution kernel against its reference.

  The kernel is three launches and one reshape: the augmented product [X W | 1]; the edge messages
  H^T (X W) over the edge degrees colsum(H) + eps, accumulated over fifty row blocks in a scratch buffer whose
  high half, fed by the column of ones, collects the degrees; and the node update
  max ((H M) / (rowsum(H) + eps) + b, 0).  Each program's frame is its run with the result dropped: the
  word-level and the idealized kernel by the run of the three launches as segments, the reference by the run of
  its host operations.  The idealization rewrote nothing, so there is nothing to preserve.  Over the extended
  reals the kernel's result array is the composed specification (one launch at a time, each array a function of
  the arrays the launch reads), and so is the reference's; a sum over all nodes and the same sum taken block by
  block agree because addition is commutative and associative, and H[n, e] * 1 = H[n, e], so no finiteness of
  the inputs is used.
-/
import proofs.«118258_j69604239999586_1_alg».proof.Defs
import proofs.«118258_j69604239999586_1_alg».proof.Proof.Gen.Kernel
import proofs.«118258_j69604239999586_1_alg».proof.Proof.Gen.KernelIdeal
import proofs.«118258_j69604239999586_1_alg».proof.Proof.Gen.ReferenceIdeal
import proofs.«118258_j69604239999586_1_alg».proof.Proof.Gen.Pre_finite_inputs
import proofs.«118258_j69604239999586_1_alg».proof.Proof.Gen.ReferenceIdeal.Run
import proofs.«118258_j69604239999586_1_alg».proof.Proof.Gen.ReferenceIdeal.Read
import proofs.«118258_j69604239999586_1_alg».proof.Proof.K.Run
import proofs.«118258_j69604239999586_1_alg».proof.Proof.KI.Run
import proofs.«118258_j69604239999586_1_alg».proof.Proof.KI.Val0
import proofs.«118258_j69604239999586_1_alg».proof.Proof.KI.Val1
import proofs.«118258_j69604239999586_1_alg».proof.Proof.KI.Val2
import proofs.«118258_j69604239999586_1_alg».proof.Proof.RefValue
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-- The bias vector reshaped to one row is the bias laid out as a one-row array. -/
theorem reshape_bias (b : Cert.Spec.Arr1 128) (h : (⟨1, ![128]⟩ : Shape).ShapeCasts ⟨2, ![1, 128]⟩) :
    shapeCast ⟨2, ![1, 128]⟩ b h = Cert.Spec.brow b := by
  funext j
  obtain ⟨u, i, rfl⟩ : ∃ (u : Fin 1) (i : Fin 128), j = ix2 u i := ⟨j 0, j 1, eq_ix2 j⟩
  exact shapeCast_a_1a_apply b h u i

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen Cert.KernelIdeal.Hand

/-- The kernel's result array over the extended reals is the composed specification of the four arguments: the
    third launch's array of H, the second launch's array and the reshaped bias; the second launch's of H and the
    first launch's array; the first launch's of X and W. -/
theorem kernel_value (m : (ℓ : Loc nD τ sig) → Buf (Elt Ideal) ℓ) (c : Dev nD) :
    (dat2 (VV3 m) c).arrAt 3 cfg2.N
      = Cert.Spec.outv (m ((c : Thread nD τ).loc main_arg1))
          (Cert.Spec.msc (m ((c : Thread nD τ).loc main_arg1)) (Cert.Spec.xw (m ((c : Thread nD τ).loc main_arg0)) (m ((c : Thread nD τ).loc main_arg2))))
          (Cert.Spec.brow (m ((c : Thread nD τ).loc main_arg3))) := by
  rw [Val2.final2 (VV3 m) c, VV3_main_arg1 m c, VV3_main_v1 m c, VV3_main_v2 m c, Val1.final1 (VV1 m) c, VV1_main_arg1 m c,
    VV1_main_v0 m c, Val0.final0 (VV0 m) c, VV0_main_arg0 m c, VV0_main_arg2 m c]
  exact congrArg _ (reshape_bias _ _)

end

/-- Both idealized programs, from memories agreeing on the arguments, end with the composed specification of the
    arguments in their result arrays. -/
theorem algebraic : Cert.algebraic_KernelIdeal_ReferenceIdeal := by
  intro m ρ m' ρ' _ hagree
  refine ⟨fun c => (Cert.KernelIdeal.Hand.dat2 (Cert.KernelIdeal.Hand.VV3 m) c).arrAt 3 Cert.KernelIdeal.cfg2.N,
    Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v19_eq]
  exact (Cert.ReferenceIdeal.RefValue.ref_eq _ _ _ _).trans (kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
